-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x128x576 : Shape := ⟨4, ![32, 1, 128, 576]⟩
abbrev S32x8192x1x576 : Shape := ⟨4, ![32, 8192, 1, 576]⟩
abbrev S32x1x1x2048 : Shape := ⟨4, ![32, 1, 1, 2048]⟩
abbrev S_ : Shape := ⟨0, ![]⟩

class Facts : Prop where
  bcast_S_S32x1x128x576 : S_.BroadcastsInDim S32x1x128x576 (![] : Fin 0 → Fin S32x1x128x576.rank)
  reducesTo_S32x1x128x576_S_d0_1_2_3 : S32x1x128x576.ReducesTo [0, 1, 2, 3] S_
  h_S_ : 0 < S_.numel
  bcast_S_S32x8192x1x576 : S_.BroadcastsInDim S32x8192x1x576 (![] : Fin 0 → Fin S32x8192x1x576.rank)
  reducesTo_S32x8192x1x576_S_d0_1_2_3 : S32x8192x1x576.ReducesTo [0, 1, 2, 3] S_
  bcast_S_S32x1x1x2048 : S_.BroadcastsInDim S32x1x1x2048 (![] : Fin 0 → Fin S32x1x1x2048.rank)
  reducesTo_S32x1x1x2048_S_d0_1_2_3 : S32x1x1x2048.ReducesTo [0, 1, 2, 3] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S32x1x128x576 .f32) (main_arg1 : FVec F S32x8192x1x576 .f32) (main_arg2 : IVec S32x1x1x2048 32) : IVec S_ 1 :=
  let main_v0 : FVec F S32x1x128x576 .f32 := Host.absf main_arg0
  let main_cst : FVec F S_ .f32 := constant S_ .f32 0x7F800000#32
  let main_v1 : FVec F S32x1x128x576 .f32 := broadcastInDim S32x1x128x576 ![] bcast_S_S32x1x128x576 main_cst
  let main_v2 : IVec S32x1x128x576 1 := cmpf .olt main_v0 main_v1
  let main_c : IVec S_ 1 := constantI S_ 1 1#1
  let main_v3 : IVec S_ 1 := (fun x v => Host.reduce IntOp.andi x v reducesTo_S32x1x128x576_S_d0_1_2_3 h_S_) main_v2 main_c
  let main_v4 : FVec F S32x8192x1x576 .f32 := Host.absf main_arg1
  let main_cst_0 : FVec F S_ .f32 := constant S_ .f32 0x7F800000#32
  let main_v5 : FVec F S32x8192x1x576 .f32 := broadcastInDim S32x8192x1x576 ![] bcast_S_S32x8192x1x576 main_cst_0
  let main_v6 : IVec S32x8192x1x576 1 := cmpf .olt main_v4 main_v5
  let main_c_1 : IVec S_ 1 := constantI S_ 1 1#1
  let main_v7 : IVec S_ 1 := (fun x v => Host.reduce IntOp.andi x v reducesTo_S32x8192x1x576_S_d0_1_2_3 h_S_) main_v6 main_c_1
  let main_v8 : IVec S_ 1 := andi main_v3 main_v7
  let main_c_2 : IVec S_ 32 := constantI S_ 32 0#32
  let main_v9 : IVec S32x1x1x2048 32 := broadcastInDim S32x1x1x2048 ![] bcast_S_S32x1x1x2048 main_c_2
  let main_v10 : IVec S32x1x1x2048 1 := cmpi .sge main_arg2 main_v9
  let main_c_3 : IVec S_ 1 := constantI S_ 1 1#1
  let main_v11 : IVec S_ 1 := (fun x v => Host.reduce IntOp.andi x v reducesTo_S32x1x1x2048_S_d0_1_2_3 h_S_) main_v10 main_c_3
  let main_v12 : IVec S_ 1 := andi main_v8 main_v11
  let main_c_4 : IVec S_ 32 := constantI S_ 32 8192#32
  let main_v13 : IVec S32x1x1x2048 32 := broadcastInDim S32x1x1x2048 ![] bcast_S_S32x1x1x2048 main_c_4
  let main_v14 : IVec S32x1x1x2048 1 := cmpi .slt main_arg2 main_v13
  let main_c_5 : IVec S_ 1 := constantI S_ 1 1#1
  let main_v15 : IVec S_ 1 := (fun x v => Host.reduce IntOp.andi x v reducesTo_S32x1x1x2048_S_d0_1_2_3 h_S_) main_v14 main_c_5
  fn_part1 (F := F) main_v12 main_v15
-- ==== Kernel.lean ====
abbrev S32x1x128x576 : Shape := ⟨4, ![32, 1, 128, 576]⟩
abbrev S32x8192x1x576 : Shape := ⟨4, ![32, 8192, 1, 576]⟩
abbrev S32x1x1x2048 : Shape := ⟨4, ![32, 1, 1, 2048]⟩
abbrev S32x1x128x512 : Shape := ⟨4, ![32, 1, 128, 512]⟩
abbrev S1x1x128x576 : Shape := ⟨4, ![1, 1, 128, 576]⟩
abbrev S1x1x1x2048 : Shape := ⟨4, ![1, 1, 1, 2048]⟩
abbrev S1x1024x1x576 : Shape := ⟨4, ![1, 1024, 1, 576]⟩
abbrev S1x1x128x512 : Shape := ⟨4, ![1, 1, 128, 512]⟩
abbrev S128x512 : Shape := ⟨2, ![128, 512]⟩
abbrev S128x1 : Shape := ⟨2, ![128, 1]⟩
abbrev S2048 : Shape := ⟨1, ![2048]⟩
abbrev S2048x1 : Shape := ⟨2, ![2048, 1]⟩
abbrev S1x1024 : Shape := ⟨2, ![1, 1024]⟩
abbrev S2048x1024 : Shape := ⟨2, ![2048, 1024]⟩
abbrev S1024 : Shape := ⟨1, ![1024]⟩
abbrev S1024x576 : Shape := ⟨2, ![1024, 576]⟩
abbrev S128x576 : Shape := ⟨2, ![128, 576]⟩
abbrev S128x1024 : Shape := ⟨2, ![128, 1024]⟩
abbrev S128 : Shape := ⟨1, ![128]⟩
abbrev S1024x512 : Shape := ⟨2, ![1024, 512]⟩

abbrev nBuf : Space → Nat
  | .hbm => 4
  | .vmem => 11
  | .smem => 0
  | _ => 0

abbrev bufTy : (tb : Table) → Fin (tcTables nBuf tb) → BufTy
  | .hbm, ⟨0, _⟩ => ⟨S32x1x128x576, .f32⟩
  | .hbm, ⟨1, _⟩ => ⟨S32x8192x1x576, .f32⟩
  | .hbm, ⟨2, _⟩ => ⟨S32x1x1x2048, .i32⟩
  | .hbm, ⟨3, _⟩ => ⟨S32x1x128x512, .f32⟩
  | .local _ .vmem, ⟨0, _⟩ => ⟨S1x1x128x576, .f32⟩
  | .local _ .vmem, ⟨1, _⟩ => ⟨S1x1x128x576, .f32⟩
  | .local _ .vmem, ⟨2, _⟩ => ⟨S1x1x1x2048, .i32⟩
  | .local _ .vmem, ⟨3, _⟩ => ⟨S1x1x1x2048, .i32⟩
  | .local _ .vmem, ⟨4, _⟩ => ⟨S1x1024x1x576, .f32⟩
  | .local _ .vmem, ⟨5, _⟩ => ⟨S1x1024x1x576, .f32⟩
  | .local _ .vmem, ⟨6, _⟩ => ⟨S1x1x128x512, .f32⟩
  | .local _ .vmem, ⟨7, _⟩ => ⟨S1x1x128x512, .f32⟩
  | .local _ .vmem, ⟨8, _⟩ => ⟨S128x512, .f32⟩
  | .local _ .vmem, ⟨9, _⟩ => ⟨S128x1, .f32⟩
  | .local _ .vmem, ⟨10, _⟩ => ⟨S128x1, .f32⟩
  | _, _ => ⟨S32x1x128x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v58 : BitVec 1 := Scalar.cmpi .eq arg1 c7_i32
  let v59 : BitVec 32 := Scalar.extui v58
  let c0_i32_29 : BitVec 32 := 0#32
  let v60 : BitVec 1 := Scalar.cmpi .ne v59 c0_i32_29
  v60

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x128x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1x1x2048_S1x1x1x2048_0_0_0_0 : ∀ a, (![0, 0, 0, 0] : Fin 4 → Nat) a + S1x1x1x2048.size a ≤ S1x1x1x2048.size a
  h_S1x1x1x2048 : 0 < S1x1x1x2048.numel
  shapeCasts_S1x1x1x2048_S2048 : S1x1x1x2048.ShapeCasts S2048
  shapeCasts_S2048_S2048x1 : S2048.ShapeCasts S2048x1
  iota_S1x1024_d1_w32 : S1x1024.Iotas .tc 32 [1]
  broadcasts_S2048x1_S2048x1024 : S2048x1.Broadcasts S2048x1024
  broadcasts_S1x1024_S2048x1024 : S1x1024.Broadcasts S2048x1024
  natLt_1_32 : 1 < 32
  reduces_S2048x1024_S1024 : S2048x1024.Reduces [0] S1024
  shapeCasts_S1024_S1x1024 : S1024.ShapeCasts S1x1024
  inb_S1x1024x1x576_S1x1024x1x576_0_0_0_0 : ∀ a, (![0, 0, 0, 0] : Fin 4 → Nat) a + S1x1024x1x576.size a ≤ S1x1024x1x576.size a
  h_S1x1024x1x576 : 0 < S1x1024x1x576.numel
  shapeCasts_S1x1024x1x576_S1024x576 : S1x1024x1x576.ShapeCasts S1024x576
  bitsLt_bf16_f32 : FTy.bits .bf16 < FTy.bits .f32
  inb_S1x1x128x576_S1x1x128x576_0_0_0_0 : ∀ a, (![0, 0, 0, 0] : Fin 4 → Nat) a + S1x1x128x576.size a ≤ S1x1x128x576.size a
  h_S1x1x128x576 : 0 < S1x1x128x576.numel
  shapeCasts_S1x1x128x576_S128x576 : S1x1x128x576.ShapeCasts S128x576
  reduces_S128x1024_S128 : S128x1024.Reduces [1] S128
  shapeCasts_S128_S128x1 : S128.ShapeCasts S128x1
  broadcasts_S128x1_S128x1024 : S128x1.Broadcasts S128x1024
  broadcasts_S1x1024_S128x1024 : S1x1024.Broadcasts S128x1024
  slices_S1024x576_o0_0_S1024x512 : S1024x576.Slices ![0, 0] S1024x512
  broadcasts_S128x1_S128x512 : S128x1.Broadcasts S128x512
  inb_S1x1x128x512_S1x1x128x512_0_0_0_0 : ∀ a, (![0, 0, 0, 0] : Fin 4 → Nat) a + S1x1x128x512.size a ≤ S1x1x128x512.size a
  h_S1x1x128x512 : 0 < S1x1x128x512.numel
  shapeCasts_S1x1x128x512_S128x512 : S1x1x128x512.ShapeCasts S128x512
  shapeCasts_S128x512_S1x1x128x512 : S128x512.ShapeCasts S1x1x128x512
  dot_S128x576_S1024x576_S128x1024_1_1_0_0_n_n_wf : DotDims.WF S128x576 S1024x576 S128x1024 [1] [1] [0] [0] [] []
  dot_S128x1024_S1024x512_S128x512_1_0_0_1_n_n_wf : DotDims.WF S128x1024 S1024x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x576.size a ≤ S32x1x128x576.size a
  hwx0_0 : ∀ i : grid0.Coords, EltTy.bits .f32 = 32 ∨ (Rect.block (s := S32x1x128x576) S1x1x128x576.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x2048.size a ≤ S32x1x1x2048.size a
  hwx0_1 : ∀ i : grid0.Coords, EltTy.bits .i32 = 32 ∨ (Rect.block (s := S32x1x1x2048) S1x1x1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1x576.size a ≤ S32x8192x1x576.size a
  hwx0_2 : ∀ i : grid0.Coords, EltTy.bits .f32 = 32 ∨ (Rect.block (s := S32x8192x1x576) S1x1024x1x576.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128x512.size a ≤ S32x1x128x512.size a
  hwx0_3 : ∀ i : grid0.Coords, EltTy.bits .f32 = 32 ∨ (Rect.block (s := S32x1x128x512) S1x1x128x512.size (cc0_transform_3 i) (hinb0_3 i)).WholeWords (EltTy.packing .f32)

variable [Facts₀]

def dot_S128x576_S1024x576_S128x1024_1_1_0_0_n_n : DotDims S128x576 S1024x576 S128x1024 where
  lhsContracting := [1]
  rhsContracting := [1]
  lhsNonContracting := [0]
  rhsNonContracting := [0]
  lhsBatch := []
  rhsBatch := []
  wf := dot_S128x576_S1024x576_S128x1024_1_1_0_0_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf

abbrev win0_0 : Pipeline.Window sig grid0 :=
  Pipeline.Window.ofSpec (Memref.whole main_arg0) S1x1x128x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x1x576.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x128x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x1x128x576 : Shape := ⟨4, ![32, 1, 128, 576]⟩
abbrev S32x8192x1x576 : Shape := ⟨4, ![32, 8192, 1, 576]⟩
abbrev S32x1x1x2048 : Shape := ⟨4, ![32, 1, 1, 2048]⟩
abbrev S32 : Shape := ⟨1, ![32]⟩
abbrev S32x1x1x1 : Shape := ⟨4, ![32, 1, 1, 1]⟩
abbrev S1 : Shape := ⟨1, ![1]⟩
abbrev S1x1x1x1 : Shape := ⟨4, ![1, 1, 1, 1]⟩
abbrev S_ : Shape := ⟨0, ![]⟩
abbrev S32x1x1x2048x1 : Shape := ⟨5, ![32, 1, 1, 2048, 1]⟩
abbrev S32x1x1x2048x3 : Shape := ⟨5, ![32, 1, 1, 2048, 3]⟩
abbrev S32x1x1x2048x576 : Shape := ⟨5, ![32, 1, 1, 2048, 576]⟩
abbrev S32x1x1x128x576 : Shape := ⟨5, ![32, 1, 1, 128, 576]⟩
abbrev S32x1x1x128x2048 : Shape := ⟨5, ![32, 1, 1, 128, 2048]⟩
abbrev S32x1x1x1x2048 : Shape := ⟨5, ![32, 1, 1, 1, 2048]⟩
abbrev S32x1x1x128 : Shape := ⟨4, ![32, 1, 1, 128]⟩
abbrev S32x1x1x128x1 : Shape := ⟨5, ![32, 1, 1, 128, 1]⟩
abbrev S32x1x1x2048x512 : Shape := ⟨5, ![32, 1, 1, 2048, 512]⟩
abbrev S32x1x1x128x512 : Shape := ⟨5, ![32, 1, 1, 128, 512]⟩
abbrev S32x1x128x512 : Shape := ⟨4, ![32, 1, 128, 512]⟩

abbrev nBuf : Space → Nat
  | .hbm => 77
  | .vmem => 0
  | .smem => 0
  | _ => 0

abbrev bufTy : (tb : Table) → Fin (tcTables nBuf tb) → BufTy
  | .hbm, ⟨0, _⟩ => ⟨S32x1x128x576, .f32⟩
  | .hbm, ⟨1, _⟩ => ⟨S32x8192x1x576, .f32⟩
  | .hbm, ⟨2, _⟩ => ⟨S32x1x1x2048, .i32⟩
  | .hbm, ⟨3, _⟩ => ⟨S32, .i32⟩
  | .hbm, ⟨4, _⟩ => ⟨S32x1x1x1, .i32⟩
  | .hbm, ⟨5, _⟩ => ⟨S1, .i32⟩
  | .hbm, ⟨6, _⟩ => ⟨S1x1x1x1, .i32⟩
  | .hbm, ⟨7, _⟩ => ⟨S_, .i32⟩
  | .hbm, ⟨8, _⟩ => ⟨S32x1x1x1, .i32⟩
  | .hbm, ⟨9, _⟩ => ⟨S32x1x1x1, .i1⟩
  | .hbm, ⟨10, _⟩ => ⟨S_, .i32⟩
  | .hbm, ⟨11, _⟩ => ⟨S32x1x1x1, .i32⟩
  | .hbm, ⟨12, _⟩ => ⟨S32x1x1x1, .i32⟩
  | .hbm, ⟨13, _⟩ => ⟨S32x1x1x1, .i32⟩
  | .hbm, ⟨14, _⟩ => ⟨S_, .i32⟩
  | .hbm, ⟨15, _⟩ => ⟨S32x1x1x2048, .i32⟩
  | .hbm, ⟨16, _⟩ => ⟨S32x1x1x2048, .i1⟩
  | .hbm, ⟨17, _⟩ => ⟨S_, .i32⟩
  | .hbm, ⟨18, _⟩ => ⟨S32x1x1x2048, .i32⟩
  | .hbm, ⟨19, _⟩ => ⟨S32x1x1x2048, .i32⟩
  | .hbm, ⟨20, _⟩ => ⟨S32x1x1x2048, .i32⟩
  | .hbm, ⟨21, _⟩ => ⟨S_, .i32⟩
  | .hbm, ⟨22, _⟩ => ⟨S1x1x1x1, .i32⟩
  | .hbm, ⟨23, _⟩ => ⟨S1x1x1x1, .i1⟩
  | .hbm, ⟨24, _⟩ => ⟨S_, .i32⟩
  | .hbm, ⟨25, _⟩ => ⟨S1x1x1x1, .i32⟩
  | .hbm, ⟨26, _⟩ => ⟨S1x1x1x1, .i32⟩
  | .hbm, ⟨27, _⟩ => ⟨S1x1x1x1, .i32⟩
  | .hbm, ⟨28, _⟩ => ⟨S32x1x1x2048, .i32⟩
  | .hbm, ⟨29, _⟩ => ⟨S32x1x1x2048, .i32⟩
  | .hbm, ⟨30, _⟩ => ⟨S32x1x1x2048x1, .i32⟩
  | .hbm, ⟨31, _⟩ => ⟨S32x1x1x2048x1, .i32⟩
  | .hbm, ⟨32, _⟩ => ⟨S32x1x1x2048x1, .i32⟩
  | .hbm, ⟨33, _⟩ => ⟨S32x1x1x2048x3, .i32⟩
  | .hbm, ⟨34, _⟩ => ⟨S32x1x1x2048x576, .f32⟩
  | .hbm, ⟨35, _⟩ => ⟨S32x1x1x128x576, .f32⟩
  | .hbm, ⟨36, _⟩ => ⟨S32x1x1x128x2048, .f32⟩
  | .hbm, ⟨37, _⟩ => ⟨S_, .f32⟩
  | .hbm, ⟨38, _⟩ => ⟨S32x1x1x128x2048, .f32⟩
  | .hbm, ⟨39, _⟩ => ⟨S32x1x1x128x2048, .f32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S1, .i32⟩
  | .hbm, ⟨44, _⟩ => ⟨S_, .i32⟩
  | .hbm, ⟨45, _⟩ => ⟨S32x1x1x2048, .i32⟩
  | .hbm, ⟨46, _⟩ => ⟨S32x1x1x2048, .i32⟩
  | .hbm, ⟨47, _⟩ => ⟨S1x1x1x1, .i32⟩
  | .hbm, ⟨48, _⟩ => ⟨S32x1x1x2048, .i32⟩
  | .hbm, ⟨49, _⟩ => ⟨S32x1x1x2048, .i1⟩
  | .hbm, ⟨50, _⟩ => ⟨S_, .i32⟩
  | .hbm, ⟨51, _⟩ => ⟨S32x1x1x2048, .i32⟩
  | .hbm, ⟨52, _⟩ => ⟨S32x1x1x2048, .i1⟩
  | .hbm, ⟨53, _⟩ => ⟨S32x1x1x2048, .i1⟩
  | .hbm, ⟨54, _⟩ => ⟨S32x1x1x1x2048, .i1⟩
  | .hbm, ⟨55, _⟩ => ⟨S_, .f32⟩
  | .hbm, ⟨56, _⟩ => ⟨S_, .f32⟩
  | .hbm, ⟨57, _⟩ => ⟨S32x1x1x128x2048, .i1⟩
  | .hbm, ⟨58, _⟩ => ⟨S32x1x1x128x2048, .f32⟩
  | .hbm, ⟨59, _⟩ => ⟨S32x1x1x128x2048, .f32⟩
  | .hbm, ⟨60, _⟩ => ⟨S_, .f32⟩
  | .hbm, ⟨61, _⟩ => ⟨S32x1x1x128, .f32⟩
  | .hbm, ⟨62, _⟩ => ⟨S_, .f32⟩
  | .hbm, ⟨63, _⟩ => ⟨S32x1x1x128, .f32⟩
  | .hbm, ⟨64, _⟩ => ⟨S32x1x1x128, .f32⟩
  | .hbm, ⟨65, _⟩ => ⟨S32x1x1x128x1, .f32⟩
  | .hbm, ⟨66, _⟩ => ⟨S32x1x1x128x2048, .f32⟩
  | .hbm, ⟨67, _⟩ => ⟨S32x1x1x128x2048, .f32⟩
  | .hbm, ⟨68, _⟩ => ⟨S32x1x1x128x2048, .f32⟩
  | .hbm, ⟨69, _⟩ => ⟨S_, .f32⟩
  | .hbm, ⟨70, _⟩ => ⟨S32x1x1x128, .f32⟩
  | .hbm, ⟨71, _⟩ => ⟨S32x1x1x128x1, .f32⟩
  | .hbm, ⟨72, _⟩ => ⟨S32x1x1x128x2048, .f32⟩
  | .hbm, ⟨73, _⟩ => ⟨S32x1x1x128x2048, .f32⟩
  | .hbm, ⟨74, _⟩ => ⟨S32x1x1x2048x512, .f32⟩
  | .hbm, ⟨75, _⟩ => ⟨S32x1x1x128x512, .f32⟩
  | .hbm, ⟨76, _⟩ => ⟨S32x1x128x512, .f32⟩
  | _, _ => ⟨S32x1x128x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_c_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]

class Facts₀ : Prop where
  bcast_S32_S32x1x1x1_0 : S32.BroadcastsInDim S32x1x1x1 (![0] : Fin 1 → Fin S32x1x1x1.rank)
  bcast_S1_S1x1x1x1_2 : S1.BroadcastsInDim S1x1x1x1 (![2] : Fin 1 → Fin S1x1x1x1.rank)
  bcast_S_S32x1x1x1 : S_.BroadcastsInDim S32x1x1x1 (![] : Fin 0 → Fin S32x1x1x1.rank)
  bcast_S_S32x1x1x2048 : S_.BroadcastsInDim S32x1x1x2048 (![] : Fin 0 → Fin S32x1x1x2048.rank)
  bcast_S_S1x1x1x1 : S_.BroadcastsInDim S1x1x1x1 (![] : Fin 0 → Fin S1x1x1x1.rank)
  bcast_S32x1x1x1_S32x1x1x2048_0_1_2_3 : S32x1x1x1.BroadcastsInDim S32x1x1x2048 (![0, 1, 2, 3] : Fin 4 → Fin S32x1x1x2048.rank)
  bcast_S1x1x1x1_S32x1x1x2048_0_1_2_3 : S1x1x1x1.BroadcastsInDim S32x1x1x2048 (![0, 1, 2, 3] : Fin 4 → Fin S32x1x1x2048.rank)
  bcast_S32x1x1x2048_S32x1x1x2048x1_0_1_2_3 : S32x1x1x2048.BroadcastsInDim S32x1x1x2048x1 (![0, 1, 2, 3] : Fin 4 → Fin S32x1x1x2048x1.rank)
  concatenates_S32x1x1x2048x1_S32x1x1x2048x1_S32x1x1x2048x1_S32x1x1x2048x3_d4 : Shape.Concatenates [S32x1x1x2048x1, S32x1x1x2048x1, S32x1x1x2048x1] S32x1x1x2048x3 4
  shapeCasts_S32x1x128x576_S32x1x1x128x576 : S32x1x128x576.ShapeCasts S32x1x1x128x576
  bcast_S_S32x1x1x128x2048 : S_.BroadcastsInDim S32x1x1x128x2048 (![] : Fin 0 → Fin S32x1x1x128x2048.rank)
  bcast_S_S1 : S_.BroadcastsInDim S1 (![] : Fin 0 → Fin S1.rank)
  bcast_S1_S1x1x1x1_1 : S1.BroadcastsInDim S1x1x1x1 (![1] : Fin 1 → Fin S1x1x1x1.rank)
  bcast_S32x1x1x2048_S32x1x1x1x2048_0_1_2_4 : S32x1x1x2048.BroadcastsInDim S32x1x1x1x2048 (![0, 1, 2, 4] : Fin 4 → Fin S32x1x1x1x2048.rank)
  bcast_S32x1x1x1x2048_S32x1x1x128x2048_0_1_2_3_4 : S32x1x1x1x2048.BroadcastsInDim S32x1x1x128x2048 (![0, 1, 2, 3, 4] : Fin 5 → Fin S32x1x1x128x2048.rank)
  reducesTo_S32x1x1x128x2048_S32x1x1x128_d4 : S32x1x1x128x2048.ReducesTo [4] S32x1x1x128
  h_S_ : 0 < S_.numel
  bcast_S_S32x1x1x128 : S_.BroadcastsInDim S32x1x1x128 (![] : Fin 0 → Fin S32x1x1x128.rank)
  bcast_S32x1x1x128_S32x1x1x128x1_0_1_2_3 : S32x1x1x128.BroadcastsInDim S32x1x1x128x1 (![0, 1, 2, 3] : Fin 4 → Fin S32x1x1x128x1.rank)
  bcast_S32x1x1x128x1_S32x1x1x128x2048_0_1_2_3_4 : S32x1x1x128x1.BroadcastsInDim S32x1x1x128x2048 (![0, 1, 2, 3, 4] : Fin 5 → Fin S32x1x1x128x2048.rank)
  slices_S32x1x1x2048x576_S32x1x1x2048x512_0_0_0_0_0 : S32x1x1x2048x576.Slices ![0, 0, 0, 0, 0] S32x1x1x2048x512
  shapeCasts_S32x1x1x128x512_S32x1x128x512 : S32x1x1x128x512.ShapeCasts S32x1x128x512
  gather_S32x8192x1x576_S32x1x1x2048x3_S32x1x1x2048x576_4_012_n_n_012_4_111576_wf : GatherDims.WF S32x8192x1x576 S32x1x1x2048x3 S32x1x1x2048x576 [4] [0, 1, 2] [] [0, 1, 2] [] 4 ![1, 1, 1, 576]
  dot_S32x1x1x128x576_S32x1x1x2048x576_S32x1x1x128x2048_4_4_3_3_012_012_wf : DotDims.WF S32x1x1x128x576 S32x1x1x2048x576 S32x1x1x128x2048 [4] [4] [3] [3] [0, 1, 2] [0, 1, 2]
  dot_S32x1x1x128x2048_S32x1x1x2048x512_S32x1x1x128x512_4_3_3_4_012_012_wf : DotDims.WF S32x1x1x128x2048 S32x1x1x2048x512 S32x1x1x128x512 [4] [3] [3] [4] [0, 1, 2] [0, 1, 2]

variable [Facts₀]

def gather_S32x8192x1x576_S32x1x1x2048x3_S32x1x1x2048x576_4_012_n_n_012_4_111576 : GatherDims S32x8192x1x576 S32x1x1x2048x3 S32x1x1x2048x576 where
  offsetDims := [4]
  collapsedSliceDims := [0, 1, 2]
  operandBatchingDims := []
  startIndicesBatchingDims := []
  startIndexMap := [0, 1, 2]
  indexVectorDim := 4
  sliceSizes := ![1, 1, 1, 576]
  wf := gather_S32x8192x1x576_S32x1x1x2048x3_S32x1x1x2048x576_4_012_n_n_012_4_111576_wf
def dot_S32x1x1x128x576_S32x1x1x2048x576_S32x1x1x128x2048_4_4_3_3_012_012 : DotDims S32x1x1x128x576 S32x1x1x2048x576 S32x1x1x128x2048 where
  lhsContracting := [4]
  rhsContracting := [4]
  lhsNonContracting := [3]
  rhsNonContracting := [3]
  lhsBatch := [0, 1, 2]
  rhsBatch := [0, 1, 2]
  wf := dot_S32x1x1x128x576_S32x1x1x2048x576_S32x1x1x128x2048_4_4_3_3_012_012_wf
def dot_S32x1x1x128x2048_S32x1x1x2048x512_S32x1x1x128x512_4_3_3_4_012_012 : DotDims S32x1x1x128x2048 S32x1x1x2048x512 S32x1x1x128x512 where
  lhsContracting := [4]
  rhsContracting := [3]
  lhsNonContracting := [3]
  rhsNonContracting := [4]
  lhsBatch := [0, 1, 2]
  rhsBatch := [0, 1, 2]
  wf := dot_S32x1x1x128x2048_S32x1x1x2048x512_S32x1x1x128x512_4_3_3_4_012_012_wf

class Facts : Prop extends Facts₀ where

variable [Facts]
-- ==== Proof.KPieces.lean ====
/-
  What each control case of the attention body leaves in the three carried buffers and in the output block, as the
  body's pure terms of what it loaded.

  The body's stores cover their buffers whole, so what a buffer holds afterwards is the last store's value; a load that
  follows a store of the same run reads that store's value back. At a batch's first tile (case A) the buffers are first
  reset to the splats 0, -∞, 0 and the update then reads those; at the later tiles (cases B and C) the update reads what
  the tile before left. At the last tile (case C) the output block is the quotient of the freshly updated value sums by the
  freshly updated weight sums.
-/
import proofs.«417074_j47682726920486_3_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## A batch's first tile -/

theorem first_acc (c : Dev nD) (i : grid0.Coords) (arg2 : Memref sig .tc .vmem S1x1x128x576 .f32) (harg2 : arg2.IsWhole) (arg3 : Memref sig .tc .vmem S1x1x1x2048 .i32) (harg3 : arg3.IsWhole) (arg4 : Memref sig .tc .vmem S1x1024x1x576 .f32) (harg4 : arg4.IsWhole) (arg5 : Memref sig .tc .vmem S1x1x128x512 .f32) (harg5 : arg5.IsWhole) (arg6 : Memref sig .tc .vmem S128x512 .f32) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i) (x0 : Vec F S1x1x128x576 .f32) (x1 : Vec F S1x1x1x2048 .i32) (x2 : Vec F S1x1024x1x576 .f32) :
    sout0_A_0 c i arg2 harg2 arg3 harg3 arg4 harg4 arg5 harg5 arg6 harg6 arg7 harg7 arg8 harg8 hc0 hc1 x0 x1 x2
      = k0_pay3 (k0_pay9 x2) (k0_pay12 x2 x0 (k0_pay7 (F := F))) (k0_pay13 x2 x0 (k0_pay7 (F := F))) (k0_pay14 i x1) (k0_pay6 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S128x512) hz2]
  simp only [View.readCov_unit_zero (S := S128x512) _ hz2, View.readCov_unit_zero (S := S128x1) _ hz2, View.readAt_eq_ld, harg2.read_unread, harg3.read_unread, harg4.read_unread, harg5.read_unread, harg6.read_unread, harg7.read_unread, harg8.read_unread, View.ld_unit_zero (S := S128x512) hz2, View.ld_unit_zero (S := S128x1) hz2, View.ld_unit_zero (S := S1x1024x1x576) hz4, View.ld_unit_zero (S := S1x1x128x576) hz4, View.ld_unit_zero (S := S1x1x1x2048) hz4, View.ld_unit_zero (S := S1x1x128x512) hz4]

theorem first_max (c : Dev nD) (i : grid0.Coords) (arg2 : Memref sig .tc .vmem S1x1x128x576 .f32) (harg2 : arg2.IsWhole) (arg3 : Memref sig .tc .vmem S1x1x1x2048 .i32) (harg3 : arg3.IsWhole) (arg4 : Memref sig .tc .vmem S1x1024x1x576 .f32) (harg4 : arg4.IsWhole) (arg5 : Memref sig .tc .vmem S1x1x128x512 .f32) (harg5 : arg5.IsWhole) (arg6 : Memref sig .tc .vmem S128x512 .f32) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i) (x0 : Vec F S1x1x128x576 .f32) (x1 : Vec F S1x1x1x2048 .i32) (x2 : Vec F S1x1024x1x576 .f32) :
    sout0_A_1 c i arg2 harg2 arg3 harg3 arg4 harg4 arg5 harg5 arg6 harg6 arg7 harg7 arg8 harg8 hc0 hc1 x0 x1 x2
      = k0_pay4 (k0_pay11 x2 x0 (k0_pay7 (F := F))) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S128x1) hz2]
  simp only [View.readCov_unit_zero (S := S128x512) _ hz2, View.readCov_unit_zero (S := S128x1) _ hz2, View.readAt_eq_ld, harg2.read_unread, harg3.read_unread, harg4.read_unread, harg5.read_unread, harg6.read_unread, harg7.read_unread, harg8.read_unread, View.ld_unit_zero (S := S128x512) hz2, View.ld_unit_zero (S := S128x1) hz2, View.ld_unit_zero (S := S1x1024x1x576) hz4, View.ld_unit_zero (S := S1x1x128x576) hz4, View.ld_unit_zero (S := S1x1x1x2048) hz4, View.ld_unit_zero (S := S1x1x128x512) hz4]

theorem first_sum (c : Dev nD) (i : grid0.Coords) (arg2 : Memref sig .tc .vmem S1x1x128x576 .f32) (harg2 : arg2.IsWhole) (arg3 : Memref sig .tc .vmem S1x1x1x2048 .i32) (harg3 : arg3.IsWhole) (arg4 : Memref sig .tc .vmem S1x1024x1x576 .f32) (harg4 : arg4.IsWhole) (arg5 : Memref sig .tc .vmem S1x1x128x512 .f32) (harg5 : arg5.IsWhole) (arg6 : Memref sig .tc .vmem S128x512 .f32) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i) (x0 : Vec F S1x1x128x576 .f32) (x1 : Vec F S1x1x1x2048 .i32) (x2 : Vec F S1x1024x1x576 .f32) :
    sout0_A_2 c i arg2 harg2 arg3 harg3 arg4 harg4 arg5 harg5 arg6 harg6 arg7 harg7 arg8 harg8 hc0 hc1 x0 x1 x2
      = k0_pay2 (k0_pay12 x2 x0 (k0_pay7 (F := F))) (k0_pay13 x2 x0 (k0_pay7 (F := F))) (k0_pay14 i x1) (k0_pay8 (F := F)) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S128x1) hz2]
  simp only [View.readCov_unit_zero (S := S128x512) _ hz2, View.readCov_unit_zero (S := S128x1) _ hz2, View.readAt_eq_ld, harg2.read_unread, harg3.read_unread, harg4.read_unread, harg5.read_unread, harg6.read_unread, harg7.read_unread, harg8.read_unread, View.ld_unit_zero (S := S128x512) hz2, View.ld_unit_zero (S := S128x1) hz2, View.ld_unit_zero (S := S1x1024x1x576) hz4, View.ld_unit_zero (S := S1x1x128x576) hz4, View.ld_unit_zero (S := S1x1x1x2048) hz4, View.ld_unit_zero (S := S1x1x128x512) hz4]

/-! ## A middle tile -/

theorem mid_acc (c : Dev nD) (i : grid0.Coords) (arg2 : Memref sig .tc .vmem S1x1x128x576 .f32) (harg2 : arg2.IsWhole) (arg3 : Memref sig .tc .vmem S1x1x1x2048 .i32) (harg3 : arg3.IsWhole) (arg4 : Memref sig .tc .vmem S1x1024x1x576 .f32) (harg4 : arg4.IsWhole) (arg5 : Memref sig .tc .vmem S1x1x128x512 .f32) (harg5 : arg5.IsWhole) (arg6 : Memref sig .tc .vmem S128x512 .f32) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i) (x0 : Vec F S1x1x128x576 .f32) (x1 : Vec F S1x1x1x2048 .i32) (x2 : Vec F S1x1024x1x576 .f32) (xs0 : Vec F S128x512 .f32) (xs1 : Vec F S128x1 .f32) (xs2 : Vec F S128x1 .f32) :
    sout0_B_0 c i arg2 harg2 arg3 harg3 arg4 harg4 arg5 harg5 arg6 harg6 arg7 harg7 arg8 harg8 hc0 hc1 x0 x1 x2 xs0 xs1 xs2
      = k0_pay3 (k0_pay9 x2) (k0_pay12 x2 x0 xs1) (k0_pay13 x2 x0 xs1) (k0_pay14 i x1) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz2]
  simp only [View.readCov_unit_zero (S := S128x512) _ hz2, View.readCov_unit_zero (S := S128x1) _ hz2, View.readAt_eq_ld, harg2.read_unread, harg3.read_unread, harg4.read_unread, harg5.read_unread, harg6.read_unread, harg7.read_unread, harg8.read_unread, View.ld_unit_zero (S := S128x512) hz2, View.ld_unit_zero (S := S128x1) hz2, View.ld_unit_zero (S := S1x1024x1x576) hz4, View.ld_unit_zero (S := S1x1x128x576) hz4, View.ld_unit_zero (S := S1x1x1x2048) hz4, View.ld_unit_zero (S := S1x1x128x512) hz4]

theorem mid_max (c : Dev nD) (i : grid0.Coords) (arg2 : Memref sig .tc .vmem S1x1x128x576 .f32) (harg2 : arg2.IsWhole) (arg3 : Memref sig .tc .vmem S1x1x1x2048 .i32) (harg3 : arg3.IsWhole) (arg4 : Memref sig .tc .vmem S1x1024x1x576 .f32) (harg4 : arg4.IsWhole) (arg5 : Memref sig .tc .vmem S1x1x128x512 .f32) (harg5 : arg5.IsWhole) (arg6 : Memref sig .tc .vmem S128x512 .f32) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i) (x0 : Vec F S1x1x128x576 .f32) (x1 : Vec F S1x1x1x2048 .i32) (x2 : Vec F S1x1024x1x576 .f32) (xs0 : Vec F S128x512 .f32) (xs1 : Vec F S128x1 .f32) (xs2 : Vec F S128x1 .f32) :
    sout0_B_1 c i arg2 harg2 arg3 harg3 arg4 harg4 arg5 harg5 arg6 harg6 arg7 harg7 arg8 harg8 hc0 hc1 x0 x1 x2 xs0 xs1 xs2
      = k0_pay4 (k0_pay11 x2 x0 xs1) := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz2]
  simp only [View.readCov_unit_zero (S := S128x512) _ hz2, View.readCov_unit_zero (S := S128x1) _ hz2, View.readAt_eq_ld, harg2.read_unread, harg3.read_unread, harg4.read_unread, harg5.read_unread, harg6.read_unread, harg7.read_unread, harg8.read_unread, View.ld_unit_zero (S := S128x512) hz2, View.ld_unit_zero (S := S128x1) hz2, View.ld_unit_zero (S := S1x1024x1x576) hz4, View.ld_unit_zero (S := S1x1x128x576) hz4, View.ld_unit_zero (S := S1x1x1x2048) hz4, View.ld_unit_zero (S := S1x1x128x512) hz4]

theorem mid_sum (c : Dev nD) (i : grid0.Coords) (arg2 : Memref sig .tc .vmem S1x1x128x576 .f32) (harg2 : arg2.IsWhole) (arg3 : Memref sig .tc .vmem S1x1x1x2048 .i32) (harg3 : arg3.IsWhole) (arg4 : Memref sig .tc .vmem S1x1024x1x576 .f32) (harg4 : arg4.IsWhole) (arg5 : Memref sig .tc .vmem S1x1x128x512 .f32) (harg5 : arg5.IsWhole) (arg6 : Memref sig .tc .vmem S128x512 .f32) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i) (x0 : Vec F S1x1x128x576 .f32) (x1 : Vec F S1x1x1x2048 .i32) (x2 : Vec F S1x1024x1x576 .f32) (xs0 : Vec F S128x512 .f32) (xs1 : Vec F S128x1 .f32) (xs2 : Vec F S128x1 .f32) :
    sout0_B_2 c i arg2 harg2 arg3 harg3 arg4 harg4 arg5 harg5 arg6 harg6 arg7 harg7 arg8 harg8 hc0 hc1 x0 x1 x2 xs0 xs1 xs2
      = k0_pay2 (k0_pay12 x2 x0 xs1) (k0_pay13 x2 x0 xs1) (k0_pay14 i x1) xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz2]
  simp only [View.readCov_unit_zero (S := S128x512) _ hz2, View.readCov_unit_zero (S := S128x1) _ hz2, View.readAt_eq_ld, harg2.read_unread, harg3.read_unread, harg4.read_unread, harg5.read_unread, harg6.read_unread, harg7.read_unread, harg8.read_unread, View.ld_unit_zero (S := S128x512) hz2, View.ld_unit_zero (S := S128x1) hz2, View.ld_unit_zero (S := S1x1024x1x576) hz4, View.ld_unit_zero (S := S1x1x128x576) hz4, View.ld_unit_zero (S := S1x1x1x2048) hz4, View.ld_unit_zero (S := S1x1x128x512) hz4]

/-! ## A batch's last tile -/

theorem last_acc (c : Dev nD) (i : grid0.Coords) (arg2 : Memref sig .tc .vmem S1x1x128x576 .f32) (harg2 : arg2.IsWhole) (arg3 : Memref sig .tc .vmem S1x1x1x2048 .i32) (harg3 : arg3.IsWhole) (arg4 : Memref sig .tc .vmem S1x1024x1x576 .f32) (harg4 : arg4.IsWhole) (arg5 : Memref sig .tc .vmem S1x1x128x512 .f32) (harg5 : arg5.IsWhole) (arg6 : Memref sig .tc .vmem S128x512 .f32) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i) (x0 : Vec F S1x1x128x576 .f32) (x1 : Vec F S1x1x1x2048 .i32) (x2 : Vec F S1x1024x1x576 .f32) (xs0 : Vec F S128x512 .f32) (xs1 : Vec F S128x1 .f32) (xs2 : Vec F S128x1 .f32) :
    sout0_C_0 c i arg2 harg2 arg3 harg3 arg4 harg4 arg5 harg5 arg6 harg6 arg7 harg7 arg8 harg8 hc0 hc1 x0 x1 x2 xs0 xs1 xs2
      = k0_pay3 (k0_pay9 x2) (k0_pay12 x2 x0 xs1) (k0_pay13 x2 x0 xs1) (k0_pay14 i x1) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readCov_unit_zero (S := S128x512) _ hz2, View.readCov_unit_zero (S := S128x1) _ hz2, View.readAt_eq_ld, harg2.read_unread, harg3.read_unread, harg4.read_unread, harg5.read_unread, harg6.read_unread, harg7.read_unread, harg8.read_unread, View.ld_unit_zero (S := S128x512) hz2, View.ld_unit_zero (S := S128x1) hz2, View.ld_unit_zero (S := S1x1024x1x576) hz4, View.ld_unit_zero (S := S1x1x128x576) hz4, View.ld_unit_zero (S := S1x1x1x2048) hz4, View.ld_unit_zero (S := S1x1x128x512) hz4]

theorem last_max (c : Dev nD) (i : grid0.Coords) (arg2 : Memref sig .tc .vmem S1x1x128x576 .f32) (harg2 : arg2.IsWhole) (arg3 : Memref sig .tc .vmem S1x1x1x2048 .i32) (harg3 : arg3.IsWhole) (arg4 : Memref sig .tc .vmem S1x1024x1x576 .f32) (harg4 : arg4.IsWhole) (arg5 : Memref sig .tc .vmem S1x1x128x512 .f32) (harg5 : arg5.IsWhole) (arg6 : Memref sig .tc .vmem S128x512 .f32) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i) (x0 : Vec F S1x1x128x576 .f32) (x1 : Vec F S1x1x1x2048 .i32) (x2 : Vec F S1x1024x1x576 .f32) (xs0 : Vec F S128x512 .f32) (xs1 : Vec F S128x1 .f32) (xs2 : Vec F S128x1 .f32) :
    sout0_C_1 c i arg2 harg2 arg3 harg3 arg4 harg4 arg5 harg5 arg6 harg6 arg7 harg7 arg8 harg8 hc0 hc1 x0 x1 x2 xs0 xs1 xs2
      = k0_pay4 (k0_pay11 x2 x0 xs1) := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readCov_unit_zero (S := S128x512) _ hz2, View.readCov_unit_zero (S := S128x1) _ hz2, View.readAt_eq_ld, harg2.read_unread, harg3.read_unread, harg4.read_unread, harg5.read_unread, harg6.read_unread, harg7.read_unread, harg8.read_unread, View.ld_unit_zero (S := S128x512) hz2, View.ld_unit_zero (S := S128x1) hz2, View.ld_unit_zero (S := S1x1024x1x576) hz4, View.ld_unit_zero (S := S1x1x128x576) hz4, View.ld_unit_zero (S := S1x1x1x2048) hz4, View.ld_unit_zero (S := S1x1x128x512) hz4]

theorem last_sum (c : Dev nD) (i : grid0.Coords) (arg2 : Memref sig .tc .vmem S1x1x128x576 .f32) (harg2 : arg2.IsWhole) (arg3 : Memref sig .tc .vmem S1x1x1x2048 .i32) (harg3 : arg3.IsWhole) (arg4 : Memref sig .tc .vmem S1x1024x1x576 .f32) (harg4 : arg4.IsWhole) (arg5 : Memref sig .tc .vmem S1x1x128x512 .f32) (harg5 : arg5.IsWhole) (arg6 : Memref sig .tc .vmem S128x512 .f32) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i) (x0 : Vec F S1x1x128x576 .f32) (x1 : Vec F S1x1x1x2048 .i32) (x2 : Vec F S1x1024x1x576 .f32) (xs0 : Vec F S128x512 .f32) (xs1 : Vec F S128x1 .f32) (xs2 : Vec F S128x1 .f32) :
    sout0_C_2 c i arg2 harg2 arg3 harg3 arg4 harg4 arg5 harg5 arg6 harg6 arg7 harg7 arg8 harg8 hc0 hc1 x0 x1 x2 xs0 xs1 xs2
      = k0_pay2 (k0_pay12 x2 x0 xs1) (k0_pay13 x2 x0 xs1) (k0_pay14 i x1) xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readCov_unit_zero (S := S128x512) _ hz2, View.readCov_unit_zero (S := S128x1) _ hz2, View.readAt_eq_ld, harg2.read_unread, harg3.read_unread, harg4.read_unread, harg5.read_unread, harg6.read_unread, harg7.read_unread, harg8.read_unread, View.ld_unit_zero (S := S128x512) hz2, View.ld_unit_zero (S := S128x1) hz2, View.ld_unit_zero (S := S1x1024x1x576) hz4, View.ld_unit_zero (S := S1x1x128x576) hz4, View.ld_unit_zero (S := S1x1x1x2048) hz4, View.ld_unit_zero (S := S1x1x128x512) hz4]

theorem last_out (c : Dev nD) (i : grid0.Coords) (arg2 : Memref sig .tc .vmem S1x1x128x576 .f32) (harg2 : arg2.IsWhole) (arg3 : Memref sig .tc .vmem S1x1x1x2048 .i32) (harg3 : arg3.IsWhole) (arg4 : Memref sig .tc .vmem S1x1024x1x576 .f32) (harg4 : arg4.IsWhole) (arg5 : Memref sig .tc .vmem S1x1x128x512 .f32) (harg5 : arg5.IsWhole) (arg6 : Memref sig .tc .vmem S128x512 .f32) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i) (x0 : Vec F S1x1x128x576 .f32) (x1 : Vec F S1x1x1x2048 .i32) (x2 : Vec F S1x1024x1x576 .f32) (xs0 : Vec F S128x512 .f32) (xs1 : Vec F S128x1 .f32) (xs2 : Vec F S128x1 .f32) :
    out0_C_3 c i arg2 harg2 arg3 harg3 arg4 harg4 arg5 harg5 arg6 harg6 arg7 harg7 arg8 harg8 hc0 hc1 x0 x1 x2 xs0 xs1 xs2
      = k0_pay5 (k0_pay3 (k0_pay9 x2) (k0_pay12 x2 x0 xs1) (k0_pay13 x2 x0 xs1) (k0_pay14 i x1) xs0) (k0_pay2 (k0_pay12 x2 x0 xs1) (k0_pay13 x2 x0 xs1) (k0_pay14 i x1) xs2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz4]
  simp only [View.readCov_unit_zero (S := S128x512) _ hz2, View.readCov_unit_zero (S := S128x1) _ hz2, View.readAt_eq_ld, harg2.read_unread, harg3.read_unread, harg4.read_unread, harg5.read_unread, harg6.read_unread, harg7.read_unread, harg8.read_unread, View.ld_unit_zero (S := S128x512) hz2, View.ld_unit_zero (S := S128x1) hz2, View.ld_unit_zero (S := S1x1024x1x576) hz4, View.ld_unit_zero (S := S1x1x128x576) hz4, View.ld_unit_zero (S := S1x1x1x2048) hz4, View.ld_unit_zero (S := S1x1x128x512) hz4]

end Cert.KernelIdeal.Pieces

end
-- ==== Proof.KSteps.lean ====
/-
  What each grid point leaves in the three carried buffers, as the body's pure terms of the point's blocks and of what
  the point before left: at a batch's first tile over the freshly reset buffers, at every later tile over the previous
  tile's; and what the batch's last tile leaves in the output block, the quotient of its own updated sums.
-/
import proofs.«417074_j47682726920486_3_alg».proof.Proof.KPieces
import proofs.«417074_j47682726920486_3_alg».proof.Proof.Gen.KernelIdeal.Value

set_option maxRecDepth 16384

noncomputable section

namespace Cert.KernelIdeal.Steps

open Idealize.ShloMosaic Idealize.ShloMosaic.TcCoe Idealize.SL.Sem Cert.KernelIdeal Cert.KernelIdeal.Gen Cert.KernelIdeal.Pieces

variable {F : FTy → Type} [FloatOps F]
variable (m : (ℓ : Loc nD τ sig) → Buf (Elt F) ℓ)

/-- The query block, the selected positions and the key/value tile the body sees at point `t`. -/
abbrev qblk (c : Dev nD) (t : Fin cfg0.N) : Vec F S1x1x128x576 .f32 := iblk m c 0 t
abbrev iblkI (c : Dev nD) (t : Fin cfg0.N) : Vec F S1x1x1x2048 .i32 := iblk m c 1 t
abbrev kvblk (c : Dev nD) (t : Fin cfg0.N) : Vec F S1x1024x1x576 .f32 := iblk m c 2 t

/-- What the point before `t` left. -/
abbrev prevAt (c : Dev nD) (t : Fin cfg0.N) : Vec F S1x1x128x512 .f32 × Vec F S128x512 .f32 × Vec F S128x1 .f32 × Vec F S128x1 .f32 :=
  outsAt0 m c (t.val - 1) (Nat.lt_of_le_of_lt (Nat.sub_le _ _) t.isLt)

/-! ## A batch's first tile -/

theorem first_acc_at (c : Dev nD) (t : Fin cfg0.N) (h0 : t.val % 8 = 0) :
    (outsAt0 m c t.val t.isLt).2.1 = k0_pay3 (k0_pay9 (kvblk m c t)) (k0_pay12 (kvblk m c t) (qblk m c t) (k0_pay7 (F := F))) (k0_pay13 (kvblk m c t) (qblk m c t) (k0_pay7 (F := F))) (k0_pay14 (grid0.coords t) (iblkI m c t)) (k0_pay6 (F := F)) := by
  have h1 : ¬t.val % 8 = 7 := by omega
  rw [outsAt0_A m c t h0 h1]
  dsimp only
  exact first_acc c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

theorem first_max_at (c : Dev nD) (t : Fin cfg0.N) (h0 : t.val % 8 = 0) :
    (outsAt0 m c t.val t.isLt).2.2.1 = k0_pay4 (k0_pay11 (kvblk m c t) (qblk m c t) (k0_pay7 (F := F))) := by
  have h1 : ¬t.val % 8 = 7 := by omega
  rw [outsAt0_A m c t h0 h1]
  dsimp only
  exact first_max c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

theorem first_sum_at (c : Dev nD) (t : Fin cfg0.N) (h0 : t.val % 8 = 0) :
    (outsAt0 m c t.val t.isLt).2.2.2 = k0_pay2 (k0_pay12 (kvblk m c t) (qblk m c t) (k0_pay7 (F := F))) (k0_pay13 (kvblk m c t) (qblk m c t) (k0_pay7 (F := F))) (k0_pay14 (grid0.coords t) (iblkI m c t)) (k0_pay8 (F := F)) := by
  have h1 : ¬t.val % 8 = 7 := by omega
  rw [outsAt0_A m c t h0 h1]
  dsimp only
  exact first_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

/-! ## A later tile -/

theorem next_acc_at (c : Dev nD) (t : Fin cfg0.N) (h0 : ¬t.val % 8 = 0) :
    (outsAt0 m c t.val t.isLt).2.1 = k0_pay3 (k0_pay9 (kvblk m c t)) (k0_pay12 (kvblk m c t) (qblk m c t) (prevAt m c t).2.2.1) (k0_pay13 (kvblk m c t) (qblk m c t) (prevAt m c t).2.2.1) (k0_pay14 (grid0.coords t) (iblkI m c t)) (prevAt m c t).2.1 := by
  by_cases h1 : t.val % 8 = 7
  · rw [outsAt0_C m c t h0 h1]
    dsimp only
    exact last_acc c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevAt m c t).2.1 (prevAt m c t).2.2.1 (prevAt m c t).2.2.2
  · rw [outsAt0_B m c t h0 h1]
    dsimp only
    exact mid_acc c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prevAt m c t).2.1 (prevAt m c t).2.2.1 (prevAt m c t).2.2.2

theorem next_max_at (c : Dev nD) (t : Fin cfg0.N) (h0 : ¬t.val % 8 = 0) :
    (outsAt0 m c t.val t.isLt).2.2.1 = k0_pay4 (k0_pay11 (kvblk m c t) (qblk m c t) (prevAt m c t).2.2.1) := by
  by_cases h1 : t.val % 8 = 7
  · rw [outsAt0_C m c t h0 h1]
    dsimp only
    exact last_max c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevAt m c t).2.1 (prevAt m c t).2.2.1 (prevAt m c t).2.2.2
  · rw [outsAt0_B m c t h0 h1]
    dsimp only
    exact mid_max c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prevAt m c t).2.1 (prevAt m c t).2.2.1 (prevAt m c t).2.2.2

theorem next_sum_at (c : Dev nD) (t : Fin cfg0.N) (h0 : ¬t.val % 8 = 0) :
    (outsAt0 m c t.val t.isLt).2.2.2 = k0_pay2 (k0_pay12 (kvblk m c t) (qblk m c t) (prevAt m c t).2.2.1) (k0_pay13 (kvblk m c t) (qblk m c t) (prevAt m c t).2.2.1) (k0_pay14 (grid0.coords t) (iblkI m c t)) (prevAt m c t).2.2.2 := by
  by_cases h1 : t.val % 8 = 7
  · rw [outsAt0_C m c t h0 h1]
    dsimp only
    exact last_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevAt m c t).2.1 (prevAt m c t).2.2.1 (prevAt m c t).2.2.2
  · rw [outsAt0_B m c t h0 h1]
    dsimp only
    exact mid_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prevAt m c t).2.1 (prevAt m c t).2.2.1 (prevAt m c t).2.2.2

/-! ## The output block at a batch's last tile -/

theorem last_out_at (c : Dev nD) (t : Fin cfg0.N) (h1 : t.val % 8 = 7) :
    (outsAt0 m c t.val t.isLt).1 = k0_pay5 (outsAt0 m c t.val t.isLt).2.1 (outsAt0 m c t.val t.isLt).2.2.2 := by
  have h0 : ¬t.val % 8 = 0 := by omega
  rw [next_acc_at m c t h0, next_sum_at m c t h0, outsAt0_C m c t h0 h1]
  dsimp only
  exact last_out c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevAt m c t).2.1 (prevAt m c t).2.2.1 (prevAt m c t).2.2.2

end Cert.KernelIdeal.Steps

end
-- ==== Proof.Softmax.lean ====
/-
  The real-number algebra behind sparse top-k attention computed two ways.

  A query attends to `K` selected key positions `idx k` (repetitions allowed) among `N` positions with scores `s j`
  and values `v j`. One way sums over the selected list: the softmax weights `exp (s (idx k) - μ) / ∑ exp (s (idx k') - μ)`
  times the values. The other sweeps every position `j < N` once, weighting it by its MULTIPLICITY `mult idx j` (how many
  selected entries point at `j`), and keeps a running shift `μ` with partial sums that are rescaled by `exp (μ - μ')`
  whenever the shift moves from `μ` to `μ'`. Over the reals a common shift cancels between numerator and denominator, and
  grouping the selected entries by the position they point at turns the list sum into the multiplicity-weighted sweep.
-/
import Mathlib.Analysis.SpecialFunctions.Exp
import Mathlib.Algebra.BigOperators.Intervals
import Mathlib.Algebra.BigOperators.Fin

noncomputable section

namespace SparseAttn

open Finset

/-- How many of the selected entries point at position `j`. -/
def mult {K : ℕ} (idx : Fin K → ℕ) (j : ℕ) : ℝ := ∑ k : Fin K, if idx k = j then 1 else 0

/-- The attention output as a quotient of two sums over the selected list, with no shift. -/
def attn {K : ℕ} (s v : ℕ → ℝ) (idx : Fin K → ℕ) : ℝ :=
  (∑ k : Fin K, Real.exp (s (idx k)) * v (idx k)) / (∑ k : Fin K, Real.exp (s (idx k)))

/-- One step of the sweep: the partial sum over the positions below `J`, taken at the old shift `μ`, rescaled by
    `exp (μ - μ')` and extended by the next `n` positions at the new shift `μ'`, is the partial sum below `J + n` at `μ'`. -/
theorem sweep_step (s w : ℕ → ℝ) (J n : ℕ) (μ μ' : ℝ) :
    Real.exp (μ - μ') * (∑ j ∈ range J, Real.exp (s j - μ) * w j) + ∑ r : Fin n, Real.exp (s (J + r.val) - μ') * w (J + r.val)
      = ∑ j ∈ range (J + n), Real.exp (s j - μ') * w j := by
  rw [Finset.sum_range_add, Finset.mul_sum]
  congr 1
  · apply Finset.sum_congr rfl
    intro j _
    rw [← mul_assoc, ← Real.exp_add]
    congr 2
    ring
  · exact Fin.sum_univ_eq_sum_range (fun r => Real.exp (s (J + r) - μ') * w (J + r)) n

/-- The first step of the sweep: the first `n` positions as a sum over a range. -/
theorem sweep_first (s w : ℕ → ℝ) (n : ℕ) (μ' : ℝ) :
    ∑ r : Fin n, Real.exp (s r.val - μ') * w r.val = ∑ j ∈ range n, Real.exp (s j - μ') * w j := by
  exact Fin.sum_univ_eq_sum_range (fun j => Real.exp (s j - μ') * w j) n

/-- Grouping by position: a multiplicity-weighted sum over all positions below `N` is the sum over the selected list,
    because each selected entry points at exactly one position below `N`. -/
theorem sum_mul_mult {K : ℕ} (f : ℕ → ℝ) (idx : Fin K → ℕ) (N : ℕ) (hidx : ∀ k, idx k < N) :
    ∑ j ∈ range N, f j * mult idx j = ∑ k : Fin K, f (idx k) := by
  unfold mult
  simp_rw [Finset.mul_sum]
  rw [Finset.sum_comm]
  apply Finset.sum_congr rfl
  intro k _
  simp_rw [mul_ite, mul_one, mul_zero]
  rw [Finset.sum_ite_eq]
  simp [hidx k]

/-- A common shift cancels between the numerator and the denominator of the list quotient. -/
theorem shift_cancel {K : ℕ} (s v : ℕ → ℝ) (idx : Fin K → ℕ) (μ : ℝ) :
    (∑ k : Fin K, Real.exp (s (idx k) - μ) * v (idx k)) / (∑ k : Fin K, Real.exp (s (idx k) - μ))
      = attn s v idx := by
  unfold attn
  have h1 : ∑ k : Fin K, Real.exp (s (idx k) - μ) * v (idx k)
      = (∑ k : Fin K, Real.exp (s (idx k)) * v (idx k)) * Real.exp (-μ) := by
    rw [Finset.sum_mul]
    apply Finset.sum_congr rfl
    intro k _
    rw [sub_eq_add_neg, Real.exp_add]
    ring
  have h2 : ∑ k : Fin K, Real.exp (s (idx k) - μ)
      = (∑ k : Fin K, Real.exp (s (idx k))) * Real.exp (-μ) := by
    rw [Finset.sum_mul]
    apply Finset.sum_congr rfl
    intro k _
    rw [sub_eq_add_neg, Real.exp_add]
  rw [h1, h2, mul_div_mul_right _ _ (Real.exp_ne_zero _)]

/-- A sum of exponentials over a nonempty selected list is positive. -/
theorem list_den_pos_aux {K : ℕ} (hK : 0 < K) (s : ℕ → ℝ) (idx : Fin K → ℕ) (μ : ℝ) :
    0 < ∑ k : Fin K, Real.exp (s (idx k) - μ) := by
  haveI : Nonempty (Fin K) := ⟨⟨0, hK⟩⟩
  exact Finset.sum_pos (fun k _ => Real.exp_pos _) Finset.univ_nonempty

/-- The sweep's denominator is positive: every selected entry points below `N` and there is at least one. -/
theorem sweep_den_pos {K : ℕ} (hK : 0 < K) (s : ℕ → ℝ) (idx : Fin K → ℕ) (N : ℕ) (hidx : ∀ k, idx k < N) (μ : ℝ) :
    0 < ∑ j ∈ range N, Real.exp (s j - μ) * mult idx j := by
  have h := sum_mul_mult (fun j => Real.exp (s j - μ)) idx N hidx
  beta_reduce at h
  rw [h]
  exact list_den_pos_aux hK s idx μ

/-- The sweep over all positions, at any shift, is the attention output. -/
theorem sweep_form {K : ℕ} (hK : 0 < K) (s v : ℕ → ℝ) (idx : Fin K → ℕ) (N : ℕ) (hidx : ∀ k, idx k < N) (μ : ℝ) :
    (∑ j ∈ range N, Real.exp (s j - μ) * (mult idx j * v j)) / (∑ j ∈ range N, Real.exp (s j - μ) * mult idx j)
      = attn s v idx := by
  have hn : ∑ j ∈ range N, Real.exp (s j - μ) * (mult idx j * v j)
      = ∑ k : Fin K, Real.exp (s (idx k) - μ) * v (idx k) := by
    have h := sum_mul_mult (fun j => Real.exp (s j - μ) * v j) idx N hidx
    beta_reduce at h
    rw [← h]
    apply Finset.sum_congr rfl
    intro j _
    ring
  have hd := sum_mul_mult (fun j => Real.exp (s j - μ)) idx N hidx
  beta_reduce at hd
  rw [hn, hd]
  exact shift_cancel s v idx μ

/-- The list form's denominator is positive. -/
theorem list_den_pos {K : ℕ} (hK : 0 < K) (s : ℕ → ℝ) (idx : Fin K → ℕ) (μ : ℝ) :
    0 < ∑ k : Fin K, Real.exp (s (idx k) - μ) := by
  exact list_den_pos_aux hK s idx μ

/-- The softmax-weighted sum over the selected list, at any shift, is the attention output. -/
theorem list_form {K : ℕ} (hK : 0 < K) (s v : ℕ → ℝ) (idx : Fin K → ℕ) (μ : ℝ) :
    ∑ k : Fin K, Real.exp (s (idx k) - μ) / (∑ k' : Fin K, Real.exp (s (idx k') - μ)) * v (idx k) = attn s v idx := by
  have h : ∑ k : Fin K, Real.exp (s (idx k) - μ) / (∑ k' : Fin K, Real.exp (s (idx k') - μ)) * v (idx k)
      = (∑ k : Fin K, Real.exp (s (idx k) - μ) * v (idx k)) / (∑ k' : Fin K, Real.exp (s (idx k') - μ)) := by
    rw [div_eq_mul_inv, Finset.sum_mul]
    apply Finset.sum_congr rfl
    intro k _
    rw [div_eq_mul_inv]
    ring
  rw [h]
  exact shift_cancel s v idx μ

end SparseAttn

end
-- ==== Proof.Spec.lean ====
/-
  The specification of sparse top-k latent attention, one function of the three argument arrays.

  `Q` is [32, 1, 128, 576] (batch, one query position, head, channel), `KV` is [32, 8192, 1, 576] (batch, key position,
  one group, channel) and `I` is [32, 1, 1, 2048] (batch, ·, ·, selected entry): per batch `b` a list of 2048 selected key
  positions. Head `h` of batch `b` scores key position `j` by the full 576-channel dot product times the scale
  `σ` (the real the f32 word 0x3D2AAAAB denotes), takes the softmax of the scores over the SELECTED LIST (repetitions
  counted) and returns the softmax-weighted sum of the first 512 channels of the selected rows. `G` is that result as an
  array [32, 1, 128, 512] of extended reals, written over the real parts of the arguments; `Admissible` is what the
  precondition gives: every entry of `Q` and `KV` is a real, every selected position is below 8192.
-/
import Idealize.ShloMosaic.PureOps.Ideal
import Idealize.ShloMosaic.Lib.ValueIdx
import proofs.«417074_j47682726920486_3_alg».proof.Proof.Softmax

noncomputable section

namespace SparseAttn

open Idealize.ShloMosaic Idealize.ShloMosaic.ValueIdx

abbrev SQ : Shape := ⟨4, ![32, 1, 128, 576]⟩
abbrev SKV : Shape := ⟨4, ![32, 8192, 1, 576]⟩
abbrev SI : Shape := ⟨4, ![32, 1, 1, 2048]⟩
abbrev SO : Shape := ⟨4, ![32, 1, 128, 512]⟩

/-- The softmax scale: the real number the f32 word denotes. -/
def σ : ℝ := (Ideal.ofBits .f32 0x3D2AAAAB#32).toReal

/-- The scale word denotes a real (it is a normal f32 pattern, neither an infinity nor a NaN). -/
theorem scale_eq : Ideal.ofBits .f32 0x3D2AAAAB#32 = ((σ : ℝ) : EReal) := by
  have h : ∃ r : ℝ, Ideal.ofBits .f32 0x3D2AAAAB#32 = (r : EReal) := by
    unfold Ideal.ofBits Ideal.ieee
    dsimp only
    rw [if_neg (by decide), if_neg (by decide)]
    exact ⟨_, rfl⟩
  obtain ⟨r, hr⟩ := h
  rw [σ, hr, EReal.toReal_coe]

/-- The infinity patterns. -/
theorem neg_inf_eq : Ideal.ofBits .f32 0xFF800000#32 = (⊥ : EReal) := by
  simp [Ideal.ofBits, Ideal.ieee]

/-- A finite sum of reals, read in the extended reals, is the sum of the terms read there. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The query row of batch `b`, head `h`, as reals. -/
def qR (Q : SQ.Idx → EReal) (b : Fin 32) (h : Fin 128) (e : Fin 576) : ℝ := (Q (ix4 b 0 h e)).toReal

/-- The key/value row of batch `b` at position `j` (zero past the cache's end), as reals. -/
def kvR (KV : SKV.Idx → EReal) (b : Fin 32) (j : ℕ) (e : Fin 576) : ℝ :=
  if hj : j < 8192 then (KV (ix4 b ⟨j, hj⟩ 0 e)).toReal else 0

/-- The selected positions of batch `b`, as naturals. -/
def idxN (I : SI.Idx → BitVec 32) (b : Fin 32) (k : Fin 2048) : ℕ := (I (ix4 b 0 0 k)).toNat

/-- The score of key position `j` for head `h` of batch `b`. -/
def score (Q : SQ.Idx → EReal) (KV : SKV.Idx → EReal) (b : Fin 32) (h : Fin 128) (j : ℕ) : ℝ :=
  (∑ e : Fin 576, qR Q b h e * kvR KV b j e) * σ

/-- Channel `d` (one of the first 512) of the row at position `j`. -/
def value (KV : SKV.Idx → EReal) (b : Fin 32) (d : Fin 512) (j : ℕ) : ℝ :=
  kvR KV b j ⟨d.val, by have := d.isLt; omega⟩

/-- The attention output at (batch, head, channel). -/
def out (Q : SQ.Idx → EReal) (KV : SKV.Idx → EReal) (I : SI.Idx → BitVec 32) (b : Fin 32) (h : Fin 128) (d : Fin 512) : ℝ :=
  attn (score Q KV b h) (value KV b d) (idxN I b)

/-- The result array. -/
def G (Q : SQ.Idx → EReal) (KV : SKV.Idx → EReal) (I : SI.Idx → BitVec 32) : SO.Idx → EReal :=
  fun i => ((out Q KV I (i 0) (i 2) (i 3) : ℝ) : EReal)

theorem G_ix4 (Q : SQ.Idx → EReal) (KV : SKV.Idx → EReal) (I : SI.Idx → BitVec 32) (b : Fin 32) (z : Fin 1) (h : Fin 128)
    (d : Fin 512) : G Q KV I (ix4 b z h d) = ((out Q KV I b h d : ℝ) : EReal) := rfl

/-- What the precondition gives: finite float inputs, selected positions inside the cache. -/
structure Admissible (Q : SQ.Idx → EReal) (KV : SKV.Idx → EReal) (I : SI.Idx → BitVec 32) : Prop where
  hQ : ∀ i, Q i = (((Q i).toReal : ℝ) : EReal)
  hKV : ∀ i, KV i = (((KV i).toReal : ℝ) : EReal)
  hI : ∀ i, (I i).toNat < 8192

theorem Admissible.q_eq {Q : SQ.Idx → EReal} {KV : SKV.Idx → EReal} {I : SI.Idx → BitVec 32} (A : Admissible Q KV I)
    (b : Fin 32) (z : Fin 1) (h : Fin 128) (e : Fin 576) : Q (ix4 b z h e) = ((qR Q b h e : ℝ) : EReal) := by
  obtain rfl : z = 0 := Subsingleton.elim _ _
  exact A.hQ _

theorem Admissible.kv_eq {Q : SQ.Idx → EReal} {KV : SKV.Idx → EReal} {I : SI.Idx → BitVec 32} (A : Admissible Q KV I)
    (b : Fin 32) (j : Fin 8192) (z : Fin 1) (e : Fin 576) : KV (ix4 b j z e) = ((kvR KV b j.val e : ℝ) : EReal) := by
  obtain rfl : z = 0 := Subsingleton.elim _ _
  unfold kvR
  rw [dif_pos j.isLt]
  exact A.hKV _

theorem Admissible.idx_lt {Q : SQ.Idx → EReal} {KV : SKV.Idx → EReal} {I : SI.Idx → BitVec 32} (A : Admissible Q KV I)
    (b : Fin 32) (k : Fin 2048) : idxN I b k < 8192 := A.hI _

end SparseAttn

end
-- ==== Proof.LibKeepdimsColumn.lean ====
/-
  A sum over the last axis kept as a column (jnp.sum(x, axis=1, keepdims=True)), read at an index.

  A lane sum of an [a, b] array along its second axis leaves an [a] vector; keepdims casts it to an [a, 1] column,
  which is then broadcast over b columns, or (on the host) transposed to a [1, a] row. Each of these re-layings reads its
  operand at the evident index, for any extents a and b:
    the lane sum at row p is the sum over the row,
    the [a] vector cast to [a, 1], at (i, u), is the vector at i,
    the [a, 1] column broadcast to [a, b], at (p, c), is the column at row p,
    the [a, 1] column transposed to [1, a], at (u, i), is the column at row i.
-/
import Idealize.ShloMosaic.Lib.Pipeline.Value
import Idealize.ShloMosaic.Lib.ValueIdx
import Idealize.ShloMosaic.PureOps.Ideal.Laws

noncomputable section

namespace Idealize.ShloMosaic.KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column transposed to a `[1, a]` row reads, at `(u, i)`, the column at row `i`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_apply _ x h _ _ fun c => match c with | ⟨0, _⟩ => rfl | ⟨1, _⟩ => rfl

/-- On the extended reals a lane sum of an `[a, b]` array along its second axis, from the neutral accumulator, reads at
    row `p` as the sum over `d` of the array at `(p, d)`. -/
theorem laneSum_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ d : Fin b, v (ix2 p d) := by
  rw [Ideal.multiReduction_add_single]
  refine Finset.sum_congr rfl fun d _ => congrArg v (funext fun c => Fin.ext ?_)
  match c with
  | ⟨0, _⟩ => rfl
  | ⟨1, _⟩ => rfl

end Idealize.ShloMosaic.KeepdimsColumn

end
-- ==== Proof.KPay.lean ====
/-
  One row of the attention body, read as real arithmetic.

  At a grid point the body holds a query block `x0` [1,1,128,576], the batch's selected positions `x1` [1,1,1,2048] and
  a tile of 1024 key/value rows `x2` [1,1024,1,576], and the three carried buffers: the weighted value sums `xs0`
  [128,512], the running shift `xs1` [128,1] and the weight sums `xs2` [128,1]. For head `h`, with the tile's scores
  `s r = (∑ e, q h e * kv r e) * σ` and the tile's multiplicities `cnt r` (how many selected entries equal the absolute
  position `1024 * tile + r`), the body moves the shift from `μ` to some real `μ'`, rescales the two sums by
  `exp (μ - μ')` and adds the tile's terms `exp (s r - μ') * cnt r` (times the value channel). At a batch's first tile
  the buffers are the splats `-∞`, `0`, `0` and the rescaled part vanishes. After the last tile the output is the
  quotient of the two sums.
-/
import proofs.«417074_j47682726920486_3_alg».proof.Proof.Gen.KernelIdeal.Skeleton
import proofs.«417074_j47682726920486_3_alg».proof.Proof.Spec
import proofs.«417074_j47682726920486_3_alg».proof.Proof.LibKeepdimsColumn
import Idealize.ShloMosaic.Lib.Pipeline.Value
import Idealize.ShloMosaic.Lib.ValueLayout
import Idealize.ShloMosaic.PureOps.Ideal.Laws
import Mathlib.Data.EReal.Inv
import Mathlib.Data.Finset.Fold

noncomputable section

namespace SparseAttn.Row

open Idealize.ShloMosaic Idealize.ShloMosaic.ValueIdx Cert.KernelIdeal Cert.KernelIdeal.Gen SparseAttn
open Idealize.ShloMosaic.KeepdimsColumn

/-- The tile's score of row `r` for the head whose query row is `q`. -/
def tileScore (q : Fin 576 → ℝ) (kv : Fin 1024 → Fin 576 → ℝ) (r : Fin 1024) : ℝ := (∑ e : Fin 576, q e * kv r e) * σ

/-- How many selected entries of `x1` equal the absolute position `1024 * tile + r`. -/
def tileCount (x1 : Vec Ideal S1x1x1x2048 .i32) (tile : ℕ) (r : Fin 1024) : ℝ :=
  ∑ k : Fin 2048, if (x1 (ix4 0 0 0 k)).toNat = tile * 1024 + r.val then 1 else 0

/-- The tile, cast to a matrix and narrowed, reads the block's row. -/
theorem pay9_apply (x2 : Vec Ideal S1x1024x1x576 .f32) (r : Fin 1024) (e : Fin 576) :
    k0_pay9 (F := Ideal) x2 (ix2 r e) = x2 (ix4 0 r 0 e) := by
  unfold k0_pay9
  refine (truncf_apply (ψ := .bf16) _ bitsLt_bf16_f32 _).trans ?_
  exact shapeCast_apply x2 _ _ _ (by
    rw [Shape.rowMajor_val_four, Shape.rowMajor_val_two]
    show ((0 * 1024 + r.val) * 1 + 0) * 576 + e.val = r.val * 576 + e.val
    omega)

theorem dotA_lhs_0 (j : S128x1024.Idx) (k : dot_S128x576_S1024x576_S128x1024_1_1_0_0_n_n.contr.Idx) :
    (dot_S128x576_S1024x576_S128x1024_1_1_0_0_n_n.lhsIdx j k 0).val = (j 0).val := by
  unfold DotDims.lhsIdx
  rw [dif_neg (show ¬(0 : Fin S128x576.rank) ∈ dot_S128x576_S1024x576_S128x1024_1_1_0_0_n_n.lhsBatch by decide), dif_pos (show (0 : Fin S128x576.rank) ∈ dot_S128x576_S1024x576_S128x1024_1_1_0_0_n_n.lhsNonContracting by decide)]
  rfl
theorem dotA_lhs_1 (j : S128x1024.Idx) (k : dot_S128x576_S1024x576_S128x1024_1_1_0_0_n_n.contr.Idx) :
    (dot_S128x576_S1024x576_S128x1024_1_1_0_0_n_n.lhsIdx j k 1).val = (k ⟨0, by decide⟩).val :=
  dot_S128x576_S1024x576_S128x1024_1_1_0_0_n_n.lhsIdx_val_of_single rfl j k
theorem dotA_rhs_0 (j : S128x1024.Idx) (k : dot_S128x576_S1024x576_S128x1024_1_1_0_0_n_n.contr.Idx) :
    (dot_S128x576_S1024x576_S128x1024_1_1_0_0_n_n.rhsIdx j k 0).val = (j 1).val := by
  unfold DotDims.rhsIdx
  rw [dif_neg (show ¬(0 : Fin S1024x576.rank) ∈ dot_S128x576_S1024x576_S128x1024_1_1_0_0_n_n.rhsBatch by decide), dif_pos (show (0 : Fin S1024x576.rank) ∈ dot_S128x576_S1024x576_S128x1024_1_1_0_0_n_n.rhsNonContracting by decide)]
  rfl
theorem dotA_rhs_1 (j : S128x1024.Idx) (k : dot_S128x576_S1024x576_S128x1024_1_1_0_0_n_n.contr.Idx) :
    (dot_S128x576_S1024x576_S128x1024_1_1_0_0_n_n.rhsIdx j k 1).val = (k ⟨0, by decide⟩).val :=
  dot_S128x576_S1024x576_S128x1024_1_1_0_0_n_n.rhsIdx_val_of_single rfl j k

/-- The score product into a zero accumulator, at (head, tile row): the sum over the 576 channels. -/
theorem dotA_apply (lhs : FVec Ideal S128x576 .bf16) (rhs : FVec Ideal S1024x576 .bf16) (h : Fin 128) (r : Fin 1024) :
    FloatOps.matmul dot_S128x576_S1024x576_S128x1024_1_1_0_0_n_n none lhs rhs (constant S128x1024 .f32 0x00000000#32) (ix2 h r)
      = ∑ e : Fin 576, lhs (ix2 h e) * rhs (ix2 r e) := by
  rw [Ideal.matmul_constant_zero_apply, ← Equiv.sum_comp (ValueIdx.contrEquiv1 dot_S128x576_S1024x576_S128x1024_1_1_0_0_n_n 576 rfl rfl).symm]
  refine Finset.sum_congr rfl fun k _ => ?_
  have hk := ValueIdx.contrEquiv1_symm_val dot_S128x576_S1024x576_S128x1024_1_1_0_0_n_n 576 rfl rfl k
  have el : dot_S128x576_S1024x576_S128x1024_1_1_0_0_n_n.lhsIdx (ix2 h r) ((ValueIdx.contrEquiv1 dot_S128x576_S1024x576_S128x1024_1_1_0_0_n_n 576 rfl rfl).symm k) = ix2 h k := funext fun a => Fin.ext (by
    match a with
    | ⟨0, _⟩ => exact dotA_lhs_0 _ _
    | ⟨1, _⟩ => exact (dotA_lhs_1 _ _).trans hk)
  have er : dot_S128x576_S1024x576_S128x1024_1_1_0_0_n_n.rhsIdx (ix2 h r) ((ValueIdx.contrEquiv1 dot_S128x576_S1024x576_S128x1024_1_1_0_0_n_n 576 rfl rfl).symm k) = ix2 r k := funext fun a => Fin.ext (by
    match a with
    | ⟨0, _⟩ => exact dotA_rhs_0 _ _
    | ⟨1, _⟩ => exact (dotA_rhs_1 _ _).trans hk)
  rw [el, er]

/-- The scaled score block at (head, tile row). -/
theorem pay10_apply (x2 : Vec Ideal S1x1024x1x576 .f32) (x0 : Vec Ideal S1x1x128x576 .f32) (h : Fin 128) (r : Fin 1024) :
    k0_pay10 (F := Ideal) x2 x0 (ix2 h r)
      = (∑ e : Fin 576, x0 (ix4 0 0 h e) * x2 (ix4 0 r 0 e)) * Ideal.ofBits .f32 0x3D2AAAAB#32 := by
  unfold k0_pay10
  refine (mulf_apply _ _ _).trans ?_
  refine congrArg₂ (· * ·) ?_ rfl
  refine (dotA_apply _ _ h r).trans ?_
  refine Finset.sum_congr rfl fun e _ => ?_
  refine congrArg₂ (· * ·) ?_ (pay9_apply x2 r e)
  refine (truncf_apply (ψ := .bf16) _ bitsLt_bf16_f32 _).trans ?_
  exact shapeCast_apply x0 _ _ _ (by
    rw [Shape.rowMajor_val_four, Shape.rowMajor_val_two]
    show ((0 * 1 + 0) * 128 + h.val) * 576 + e.val = h.val * 576 + e.val
    omega)

/-- A fold of max from −∞ over a nonempty finite family of reals is a real. -/
theorem fold_max_real {ι : Type*} (s : Finset ι) (hs : s.Nonempty) (f : ι → EReal) (hf : ∀ k, ∃ r : ℝ, f k = (r : EReal)) :
    ∃ μ : ℝ, s.fold max (⊥ : EReal) f = (μ : EReal) := by
  obtain ⟨a, ha⟩ := hs
  have h1 : s.fold max (⊥ : EReal) f ≠ ⊥ := by
    obtain ⟨r, hr⟩ := hf a
    have hle : ((r : ℝ) : EReal) ≤ s.fold max (⊥ : EReal) f :=
      (Finset.le_fold_max _).2 (Or.inr ⟨a, ha, le_of_eq hr.symm⟩)
    intro h
    rw [h] at hle
    exact absurd hle (not_le.2 (EReal.bot_lt_coe r))
  have h2 : s.fold max (⊥ : EReal) f ≠ ⊤ := by
    refine ne_of_lt ((Finset.fold_max_lt _).2 ⟨bot_lt_top, fun x _ => ?_⟩)
    obtain ⟨r, hr⟩ := hf x
    rw [hr]
    exact EReal.coe_lt_top r
  exact ⟨_, (EReal.coe_toReal h2 h1).symm⟩

/-- The quotient of two reals with a nonzero denominator, taken in the extended reals, is the real quotient. -/
theorem div_coe (a L : ℝ) (hL : L ≠ 0) : Ideal.div (a : EReal) (L : EReal) = ((a / L : ℝ) : EReal) := by
  unfold Ideal.div
  rw [if_neg (by exact_mod_cast hL), ← EReal.coe_inv, ← EReal.coe_mul, div_eq_mul_inv]

/-- A sum of an [a, b] array along its first axis, from the neutral accumulator, reads at column c as the sum over k of
    the array at (k, c). -/
theorem colSum_ab_apply {a b : ℕ} {φ : FTy} (v : FVec Ideal ⟨2, ![a, b]⟩ φ) (acc : BitVec φ.bits)
    (h : Shape.Reduces ⟨2, ![a, b]⟩ [0] ⟨1, ![b]⟩) (hφ : FKind.Formats φ) (hacc : acc = FKind.add.neutral φ hφ) (c : Fin b) :
    multiReduction .add [0] ⟨1, ![b]⟩ v acc h hφ hacc (ix1 c) = ∑ k : Fin a, v (ix2 k c) := by
  rw [Ideal.multiReduction_add_single]
  refine Finset.sum_congr rfl fun d _ => congrArg v (funext fun x => Fin.ext ?_)
  match x with
  | ⟨0, _⟩ => rfl
  | ⟨1, _⟩ => rfl

/-- A lane maximum of an [a, b] array along its second axis reads at row p as the fold of max, from the accumulator's
    value, over the row. -/
theorem laneMax_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun d => v (ix2 p d)) := by
  rw [Ideal.multiReduction_maximumf_single]
  refine congrArg (fun f => Finset.fold max (Ideal.ofBits φ acc) f Finset.univ) (funext fun d => congrArg v (funext fun x => Fin.ext ?_))
  match x with
  | ⟨0, _⟩ => rfl
  | ⟨1, _⟩ => rfl

/-- The word comparing one selected entry with the absolute position 1024 * t + r, widened and read as a real, is 1 when
    the entry is that position and 0 otherwise. -/
theorem cmp_word (w : BitVec 32) (t r : ℕ) (ht : t < 8) (hr : r < 1024) :
    ((((IntOp.cmpi .eq w (IntOp.addi (IntOp.muli (BitVec.ofNat 32 t) 1024#32) (BitVec.ofNat 32 r))).setWidth 32).toInt : ℝ) : EReal)
      = (((if w.toNat = t * 1024 + r then 1 else 0 : ℝ)) : EReal) := by
  have hp : (BitVec.ofNat 32 t * 1024#32 + BitVec.ofNat 32 r).toNat = t * 1024 + r := by
    rw [BitVec.toNat_add, BitVec.toNat_mul, BitVec.toNat_ofNat, BitVec.toNat_ofNat, BitVec.toNat_ofNat]
    simp only [Nat.reducePow, Nat.reduceMod]
    omega
  have e1 : ((BitVec.ofBool true).setWidth 32).toInt = 1 := by decide
  have e0 : ((BitVec.ofBool false).setWidth 32).toInt = 0 := by decide
  show ((((BitVec.ofBool (w == BitVec.ofNat 32 t * 1024#32 + BitVec.ofNat 32 r)).setWidth 32).toInt : ℝ) : EReal) = _
  by_cases hw : w.toNat = t * 1024 + r
  · have hwp : (w == BitVec.ofNat 32 t * 1024#32 + BitVec.ofNat 32 r) = true := by
      rw [beq_iff_eq]; exact BitVec.eq_of_toNat_eq (hw.trans hp.symm)
    rw [hwp, e1, if_pos hw, Int.cast_one]
  · have hwp : (w == BitVec.ofNat 32 t * 1024#32 + BitVec.ofNat 32 r) = false := by
      rw [beq_eq_false_iff_ne]; exact fun h => hw (h ▸ hp)
    rw [hwp, e0, if_neg hw, Int.cast_zero]

/-- The multiplicity block at (head, tile row): the number of selected entries equal to the row's absolute position. -/
theorem pay14_apply (i : grid0.Coords) (x1 : Vec Ideal S1x1x1x2048 .i32) (h : Fin 128) (r : Fin 1024) :
    k0_pay14 (F := Ideal) i x1 (ix2 h r) = ((tileCount x1 (i 1).val r : ℝ) : EReal) := by
  have hi : (i 1).val < 8 := (i 1).isLt
  unfold k0_pay14 tileCount
  rw [coe_sum]
  refine (broadcastTo_1b_ab_apply _ _ h r).trans ?_
  refine (shapeCast_a_1a_apply _ _ 0 r).trans ?_
  refine (colSum_ab_apply _ _ _ _ _ r).trans ?_
  refine Finset.sum_congr rfl fun k _ => ?_
  refine Eq.trans ?_ (cmp_word (x1 (ix4 0 0 0 k)) (i 1).val r.val hi r.isLt)
  refine (sitofp_apply _ _).trans ?_
  show ((((IntOp.cmpi .eq _ _).setWidth 32).toInt : ℝ) : EReal) = _
  refine congrArg₂ (fun a b => ((((IntOp.cmpi .eq a b).setWidth 32).toInt : ℝ) : EReal)) ?_ ?_
  · refine (broadcastTo_a1_ab_apply _ _ k r).trans ?_
    refine (shapeCast_a_a1_apply _ _ k 0).trans ?_
    exact shapeCast_apply x1 _ (ix1 k) (ix4 0 0 0 k) (by
      rw [Shape.rowMajor_val_four, Shape.rowMajor_val_one]
      show ((0 * 1 + 0) * 1 + 0) * 2048 + k.val = k.val
      omega)
  · refine (broadcastTo_1b_ab_apply _ _ k r).trans ?_
    exact congrArg₂ IntOp.addi rfl (iota_single_apply .tc S1x1024 32 1 _ (ix2 0 r))

theorem dotB_lhs_0 (j : S128x512.Idx) (k : dot_S128x1024_S1024x512_S128x512_1_0_0_1_n_n.contr.Idx) :
    (dot_S128x1024_S1024x512_S128x512_1_0_0_1_n_n.lhsIdx j k 0).val = (j 0).val := by
  unfold DotDims.lhsIdx
  rw [dif_neg (show ¬(0 : Fin S128x1024.rank) ∈ dot_S128x1024_S1024x512_S128x512_1_0_0_1_n_n.lhsBatch by decide), dif_pos (show (0 : Fin S128x1024.rank) ∈ dot_S128x1024_S1024x512_S128x512_1_0_0_1_n_n.lhsNonContracting by decide)]
  rfl
theorem dotB_lhs_1 (j : S128x512.Idx) (k : dot_S128x1024_S1024x512_S128x512_1_0_0_1_n_n.contr.Idx) :
    (dot_S128x1024_S1024x512_S128x512_1_0_0_1_n_n.lhsIdx j k 1).val = (k ⟨0, by decide⟩).val :=
  dot_S128x1024_S1024x512_S128x512_1_0_0_1_n_n.lhsIdx_val_of_single rfl j k
theorem dotB_rhs_0 (j : S128x512.Idx) (k : dot_S128x1024_S1024x512_S128x512_1_0_0_1_n_n.contr.Idx) :
    (dot_S128x1024_S1024x512_S128x512_1_0_0_1_n_n.rhsIdx j k 0).val = (k ⟨0, by decide⟩).val :=
  dot_S128x1024_S1024x512_S128x512_1_0_0_1_n_n.rhsIdx_val_of_single rfl j k
theorem dotB_rhs_1 (j : S128x512.Idx) (k : dot_S128x1024_S1024x512_S128x512_1_0_0_1_n_n.contr.Idx) :
    (dot_S128x1024_S1024x512_S128x512_1_0_0_1_n_n.rhsIdx j k 1).val = (j 1).val := by
  unfold DotDims.rhsIdx
  rw [dif_neg (show ¬(1 : Fin S1024x512.rank) ∈ dot_S128x1024_S1024x512_S128x512_1_0_0_1_n_n.rhsBatch by decide), dif_pos (show (1 : Fin S1024x512.rank) ∈ dot_S128x1024_S1024x512_S128x512_1_0_0_1_n_n.rhsNonContracting by decide)]
  rfl

/-- The value product into a zero accumulator, at (head, channel): the sum over the tile's 1024 rows. -/
theorem dotB_apply (lhs : FVec Ideal S128x1024 .bf16) (rhs : FVec Ideal S1024x512 .bf16) (h : Fin 128) (d : Fin 512) :
    FloatOps.matmul dot_S128x1024_S1024x512_S128x512_1_0_0_1_n_n none lhs rhs (constant S128x512 .f32 0x00000000#32) (ix2 h d)
      = ∑ r : Fin 1024, lhs (ix2 h r) * rhs (ix2 r d) := by
  rw [Ideal.matmul_constant_zero_apply, ← Equiv.sum_comp (ValueIdx.contrEquiv1 dot_S128x1024_S1024x512_S128x512_1_0_0_1_n_n 1024 rfl rfl).symm]
  refine Finset.sum_congr rfl fun k _ => ?_
  have hk := ValueIdx.contrEquiv1_symm_val dot_S128x1024_S1024x512_S128x512_1_0_0_1_n_n 1024 rfl rfl k
  have el : dot_S128x1024_S1024x512_S128x512_1_0_0_1_n_n.lhsIdx (ix2 h d) ((ValueIdx.contrEquiv1 dot_S128x1024_S1024x512_S128x512_1_0_0_1_n_n 1024 rfl rfl).symm k) = ix2 h k := funext fun a => Fin.ext (by
    match a with
    | ⟨0, _⟩ => exact dotB_lhs_0 _ _
    | ⟨1, _⟩ => exact (dotB_lhs_1 _ _).trans hk)
  have er : dot_S128x1024_S1024x512_S128x512_1_0_0_1_n_n.rhsIdx (ix2 h d) ((ValueIdx.contrEquiv1 dot_S128x1024_S1024x512_S128x512_1_0_0_1_n_n 1024 rfl rfl).symm k) = ix2 k d := funext fun a => Fin.ext (by
    match a with
    | ⟨0, _⟩ => exact (dotB_rhs_0 _ _).trans hk
    | ⟨1, _⟩ => exact dotB_rhs_1 _ _)
  rw [el, er]

/-- The new shift at a head: the old one joined with the row's largest score. -/
theorem pay11_apply (x2 : Vec Ideal S1x1024x1x576 .f32) (x0 : Vec Ideal S1x1x128x576 .f32) (xs1 : Vec Ideal S128x1 .f32) (h : Fin 128) :
    k0_pay11 (F := Ideal) x2 x0 xs1 (ix2 h 0)
      = max (xs1 (ix2 h 0)) ((Finset.univ : Finset (Fin 1024)).fold max (⊥ : EReal) (fun r => k0_pay10 (F := Ideal) x2 x0 (ix2 h r))) := by
  unfold k0_pay11
  refine (maximumf_apply _ _ _).trans ?_
  refine congrArg₂ max rfl ?_
  refine (shapeCast_a_a1_apply _ _ h 0).trans ?_
  refine (laneMax_ab_apply _ _ _ _ _ h).trans ?_
  rw [neg_inf_eq]

/-- The rescaling factor at a head. -/
theorem pay12_apply (x2 : Vec Ideal S1x1024x1x576 .f32) (x0 : Vec Ideal S1x1x128x576 .f32) (xs1 : Vec Ideal S128x1 .f32) (j : S128x1.Idx) :
    k0_pay12 (F := Ideal) x2 x0 xs1 j = Ideal.exp (xs1 j - k0_pay11 (F := Ideal) x2 x0 xs1 j) := rfl

/-- The tile's weights at (head, tile row). -/
theorem pay13_apply (x2 : Vec Ideal S1x1024x1x576 .f32) (x0 : Vec Ideal S1x1x128x576 .f32) (xs1 : Vec Ideal S128x1 .f32) (h : Fin 128) (r : Fin 1024) :
    k0_pay13 (F := Ideal) x2 x0 xs1 (ix2 h r)
      = Ideal.exp (k0_pay10 (F := Ideal) x2 x0 (ix2 h r) - k0_pay11 (F := Ideal) x2 x0 xs1 (ix2 h 0)) := by
  unfold k0_pay13
  show Ideal.exp (k0_pay10 (F := Ideal) x2 x0 (ix2 h r) - broadcastTo S128x1024 (k0_pay11 (F := Ideal) x2 x0 xs1) _ (ix2 h r)) = _
  rw [broadcastTo_a1_ab_apply]

/-- The new weight sum at a head. -/
theorem pay2_apply (v31 : FVec Ideal S128x1 .f32) (v34 v35 : FVec Ideal S128x1024 .f32) (v37 : Vec Ideal S128x1 .f32) (h : Fin 128) :
    k0_pay2 (F := Ideal) v31 v34 v35 v37 (ix2 h 0)
      = v31 (ix2 h 0) * v37 (ix2 h 0) + ∑ r : Fin 1024, v34 (ix2 h r) * v35 (ix2 h r) := by
  unfold k0_pay2
  refine (congrFun (shapeCast_self _ _) _).trans ?_
  refine (addf_apply _ _ _).trans ?_
  refine congrArg₂ (· + ·) rfl ?_
  refine (shapeCast_a_a1_apply _ _ h 0).trans ?_
  exact laneSum_ab_apply _ _ _ _ _ h

/-- The new value sums at (head, channel). -/
theorem pay3_apply (v19 : FVec Ideal S1024x576 .bf16) (v31 : FVec Ideal S128x1 .f32) (v34 v35 : FVec Ideal S128x1024 .f32)
    (v48 : Vec Ideal S128x512 .f32) (h : Fin 128) (d : Fin 512) :
    k0_pay3 (F := Ideal) v19 v31 v34 v35 v48 (ix2 h d)
      = v31 (ix2 h 0) * v48 (ix2 h d)
        + ∑ r : Fin 1024, v34 (ix2 h r) * v35 (ix2 h r) * v19 (ix2 r ⟨d.val, by have := d.isLt; omega⟩) := by
  unfold k0_pay3
  refine (congrFun (shapeCast_self _ _) _).trans ?_
  refine (addf_apply _ _ _).trans ?_
  refine congrArg₂ (· + ·) ?_ ?_
  · refine (mulf_apply _ _ _).trans ?_
    refine congrArg₂ (· * ·) ?_ rfl
    exact broadcastTo_a1_ab_apply _ _ h d
  · refine (dotB_apply _ _ h d).trans ?_
    refine Finset.sum_congr rfl fun r _ => ?_
    refine congrArg₂ (· * ·) rfl ?_
    exact slice2_axis1_apply 0 v19 _ r d _ (by show d.val = 0 + d.val; omega)

/-- The stored shift is the new shift. -/
theorem pay4_eq (v29 : FVec Ideal S128x1 .f32) : k0_pay4 (F := Ideal) v29 = v29 := by
  unfold k0_pay4
  exact shapeCast_self _ _

/-- The output block at (head, channel). -/
theorem pay5_apply (acc : Vec Ideal S128x512 .f32) (l : Vec Ideal S128x1 .f32) (z0 z1 : Fin 1) (h : Fin 128) (d : Fin 512) :
    k0_pay5 (F := Ideal) acc l (ix4 z0 z1 h d) = Ideal.div (acc (ix2 h d)) (l (ix2 h 0)) := by
  unfold k0_pay5
  refine (shapeCast_apply _ _ _ (ix2 h d) (by
    have h0 : z0.val = 0 := by omega
    have h1 : z1.val = 0 := by omega
    rw [Shape.rowMajor_val_four, Shape.rowMajor_val_two]
    show h.val * 512 + d.val = ((z0.val * 1 + z1.val) * 128 + h.val) * 512 + d.val
    rw [h0, h1]; omega)).trans ?_
  refine (divf_apply _ _ _).trans ?_
  refine congrArg₂ Ideal.div rfl ?_
  exact broadcastTo_a1_ab_apply _ _ h d

theorem pay6_apply (j : S128x512.Idx) : k0_pay6 (F := Ideal) j = 0 := by
  unfold k0_pay6
  refine (congrFun (shapeCast_self _ _) _).trans ?_
  exact Ideal.ofBits_zero_f32

theorem pay7_apply (j : S128x1.Idx) : k0_pay7 (F := Ideal) j = ⊥ := by
  unfold k0_pay7
  refine (congrFun (shapeCast_self _ _) _).trans ?_
  exact neg_inf_eq

theorem pay8_apply (j : S128x1.Idx) : k0_pay8 (F := Ideal) j = 0 := by
  unfold k0_pay8
  refine (congrFun (shapeCast_self _ _) _).trans ?_
  exact Ideal.ofBits_zero_f32

/-- Under real inputs the scaled score block holds the tile's real scores. -/
theorem score_apply (x0 : Vec Ideal S1x1x128x576 .f32) (x2 : Vec Ideal S1x1024x1x576 .f32)
    (q : Fin 128 → Fin 576 → ℝ) (kv : Fin 1024 → Fin 576 → ℝ)
    (hx0 : ∀ (h : Fin 128) (e : Fin 576), x0 (ix4 0 0 h e) = ((q h e : ℝ) : EReal))
    (hx2 : ∀ (r : Fin 1024) (e : Fin 576), x2 (ix4 0 r 0 e) = ((kv r e : ℝ) : EReal))
    (h : Fin 128) (r : Fin 1024) :
    k0_pay10 (F := Ideal) x2 x0 (ix2 h r) = ((tileScore (q h) kv r : ℝ) : EReal) := by
  rw [pay10_apply, scale_eq]
  unfold tileScore
  rw [EReal.coe_mul, coe_sum]
  refine congrArg₂ (· * ·) (Finset.sum_congr rfl fun e _ => ?_) rfl
  rw [hx0, hx2, EReal.coe_mul]

/-- The largest score of a head's row is a real. -/
theorem rowmax_real (x0 : Vec Ideal S1x1x128x576 .f32) (x2 : Vec Ideal S1x1024x1x576 .f32)
    (q : Fin 128 → Fin 576 → ℝ) (kv : Fin 1024 → Fin 576 → ℝ)
    (hx0 : ∀ (h : Fin 128) (e : Fin 576), x0 (ix4 0 0 h e) = ((q h e : ℝ) : EReal))
    (hx2 : ∀ (r : Fin 1024) (e : Fin 576), x2 (ix4 0 r 0 e) = ((kv r e : ℝ) : EReal))
    (h : Fin 128) :
    ∃ M : ℝ, (Finset.univ : Finset (Fin 1024)).fold max (⊥ : EReal) (fun r => k0_pay10 (F := Ideal) x2 x0 (ix2 h r)) = (M : EReal) :=
  fold_max_real _ ⟨0, Finset.mem_univ _⟩ _ fun r => ⟨_, score_apply x0 x2 q kv hx0 hx2 h r⟩

/-- Once the new shift at a head is a real μ', the two sums are the old ones times exp (old shift − μ') plus the tile's terms. -/
theorem row_core (i : grid0.Coords) (x0 : Vec Ideal S1x1x128x576 .f32) (x1 : Vec Ideal S1x1x1x2048 .i32)
    (x2 : Vec Ideal S1x1024x1x576 .f32) (xs0 : Vec Ideal S128x512 .f32) (xs1 xs2 : Vec Ideal S128x1 .f32)
    (q : Fin 128 → Fin 576 → ℝ) (kv : Fin 1024 → Fin 576 → ℝ)
    (hx0 : ∀ (h : Fin 128) (e : Fin 576), x0 (ix4 0 0 h e) = ((q h e : ℝ) : EReal))
    (hx2 : ∀ (r : Fin 1024) (e : Fin 576), x2 (ix4 0 r 0 e) = ((kv r e : ℝ) : EReal))
    (h : Fin 128) (μ' : ℝ) (hμ : k0_pay11 (F := Ideal) x2 x0 xs1 (ix2 h 0) = ((μ' : ℝ) : EReal)) :
    k0_pay2 (F := Ideal) (k0_pay12 x2 x0 xs1) (k0_pay13 x2 x0 xs1) (k0_pay14 i x1) xs2 (ix2 h 0)
        = Ideal.exp (xs1 (ix2 h 0) - ((μ' : ℝ) : EReal)) * xs2 (ix2 h 0)
          + ((∑ r : Fin 1024, Real.exp (tileScore (q h) kv r - μ') * tileCount x1 (i 1).val r : ℝ) : EReal)
    ∧ ∀ d : Fin 512, k0_pay3 (F := Ideal) (k0_pay9 x2) (k0_pay12 x2 x0 xs1) (k0_pay13 x2 x0 xs1) (k0_pay14 i x1) xs0 (ix2 h d)
        = Ideal.exp (xs1 (ix2 h 0) - ((μ' : ℝ) : EReal)) * xs0 (ix2 h d)
          + ((∑ r : Fin 1024, Real.exp (tileScore (q h) kv r - μ') * (tileCount x1 (i 1).val r * kv r ⟨d.val, by have := d.isLt; omega⟩) : ℝ) : EReal) := by
  have hw : ∀ r : Fin 1024, k0_pay13 (F := Ideal) x2 x0 xs1 (ix2 h r) * k0_pay14 (F := Ideal) i x1 (ix2 h r)
      = ((Real.exp (tileScore (q h) kv r - μ') * tileCount x1 (i 1).val r : ℝ) : EReal) := by
    intro r
    rw [pay13_apply, score_apply x0 x2 q kv hx0 hx2, hμ, pay14_apply, ← EReal.coe_sub, Ideal.exp_coe, ← EReal.coe_mul]
  have he : k0_pay12 (F := Ideal) x2 x0 xs1 (ix2 h 0) = Ideal.exp (xs1 (ix2 h 0) - ((μ' : ℝ) : EReal)) := by
    rw [pay12_apply, hμ]
  refine ⟨?_, fun d => ?_⟩
  · rw [pay2_apply, he, coe_sum]
    exact congrArg₂ (· + ·) rfl (Finset.sum_congr rfl fun r _ => hw r)
  · rw [pay3_apply, he, coe_sum]
    refine congrArg₂ (· + ·) rfl (Finset.sum_congr rfl fun r _ => ?_)
    rw [hw r, pay9_apply, hx2, ← EReal.coe_mul, mul_assoc]

/-- A later tile: the three buffers hold reals `A d`, `μ`, `L` in row `h`; afterwards they hold the rescaled sums. -/
theorem row_step (i : grid0.Coords) (x0 : Vec Ideal S1x1x128x576 .f32) (x1 : Vec Ideal S1x1x1x2048 .i32)
    (x2 : Vec Ideal S1x1024x1x576 .f32) (xs0 : Vec Ideal S128x512 .f32) (xs1 xs2 : Vec Ideal S128x1 .f32)
    (q : Fin 128 → Fin 576 → ℝ) (kv : Fin 1024 → Fin 576 → ℝ)
    (hx0 : ∀ (h : Fin 128) (e : Fin 576), x0 (ix4 0 0 h e) = ((q h e : ℝ) : EReal))
    (hx2 : ∀ (r : Fin 1024) (e : Fin 576), x2 (ix4 0 r 0 e) = ((kv r e : ℝ) : EReal))
    (h : Fin 128) (μ L : ℝ) (A : Fin 512 → ℝ)
    (h1 : xs1 (ix2 h 0) = ((μ : ℝ) : EReal)) (h2 : xs2 (ix2 h 0) = ((L : ℝ) : EReal))
    (h0 : ∀ d : Fin 512, xs0 (ix2 h d) = ((A d : ℝ) : EReal)) :
    ∃ μ' : ℝ,
      k0_pay4 (F := Ideal) (k0_pay11 x2 x0 xs1) (ix2 h 0) = ((μ' : ℝ) : EReal)
      ∧ k0_pay2 (F := Ideal) (k0_pay12 x2 x0 xs1) (k0_pay13 x2 x0 xs1) (k0_pay14 i x1) xs2 (ix2 h 0)
          = ((Real.exp (μ - μ') * L + ∑ r : Fin 1024, Real.exp (tileScore (q h) kv r - μ') * tileCount x1 (i 1).val r : ℝ) : EReal)
      ∧ ∀ d : Fin 512, k0_pay3 (F := Ideal) (k0_pay9 x2) (k0_pay12 x2 x0 xs1) (k0_pay13 x2 x0 xs1) (k0_pay14 i x1) xs0 (ix2 h d)
          = ((Real.exp (μ - μ') * A d + ∑ r : Fin 1024, Real.exp (tileScore (q h) kv r - μ') * (tileCount x1 (i 1).val r * kv r ⟨d.val, by have := d.isLt; omega⟩) : ℝ) : EReal) := by
  obtain ⟨M, hM⟩ := rowmax_real x0 x2 q kv hx0 hx2 h
  have hμ : k0_pay11 (F := Ideal) x2 x0 xs1 (ix2 h 0) = ((max μ M : ℝ) : EReal) := by
    rw [pay11_apply, h1, hM]
    exact (EReal.coe_strictMono.monotone.map_max).symm
  obtain ⟨c2, c3⟩ := row_core i x0 x1 x2 xs0 xs1 xs2 q kv hx0 hx2 h (max μ M) hμ
  refine ⟨max μ M, ?_, ?_, fun d => ?_⟩
  · rw [pay4_eq]; exact hμ
  · rw [c2, h1, h2, ← EReal.coe_sub, Ideal.exp_coe, ← EReal.coe_mul, ← EReal.coe_add]
  · rw [c3 d, h1, h0 d, ← EReal.coe_sub, Ideal.exp_coe, ← EReal.coe_mul, ← EReal.coe_add]

/-- A batch's first tile: the buffers are the splats the body has just stored (`-∞`, `0`, `0`). -/
theorem row_first (i : grid0.Coords) (x0 : Vec Ideal S1x1x128x576 .f32) (x1 : Vec Ideal S1x1x1x2048 .i32)
    (x2 : Vec Ideal S1x1024x1x576 .f32)
    (q : Fin 128 → Fin 576 → ℝ) (kv : Fin 1024 → Fin 576 → ℝ)
    (hx0 : ∀ (h : Fin 128) (e : Fin 576), x0 (ix4 0 0 h e) = ((q h e : ℝ) : EReal))
    (hx2 : ∀ (r : Fin 1024) (e : Fin 576), x2 (ix4 0 r 0 e) = ((kv r e : ℝ) : EReal))
    (h : Fin 128) :
    ∃ μ' : ℝ,
      k0_pay4 (F := Ideal) (k0_pay11 x2 x0 (k0_pay7 (F := Ideal))) (ix2 h 0) = ((μ' : ℝ) : EReal)
      ∧ k0_pay2 (F := Ideal) (k0_pay12 x2 x0 (k0_pay7 (F := Ideal))) (k0_pay13 x2 x0 (k0_pay7 (F := Ideal))) (k0_pay14 i x1) (k0_pay8 (F := Ideal)) (ix2 h 0)
          = ((∑ r : Fin 1024, Real.exp (tileScore (q h) kv r - μ') * tileCount x1 (i 1).val r : ℝ) : EReal)
      ∧ ∀ d : Fin 512, k0_pay3 (F := Ideal) (k0_pay9 x2) (k0_pay12 x2 x0 (k0_pay7 (F := Ideal))) (k0_pay13 x2 x0 (k0_pay7 (F := Ideal))) (k0_pay14 i x1) (k0_pay6 (F := Ideal)) (ix2 h d)
          = ((∑ r : Fin 1024, Real.exp (tileScore (q h) kv r - μ') * (tileCount x1 (i 1).val r * kv r ⟨d.val, by have := d.isLt; omega⟩) : ℝ) : EReal) := by
  obtain ⟨M, hM⟩ := rowmax_real x0 x2 q kv hx0 hx2 h
  have hμ : k0_pay11 (F := Ideal) x2 x0 (k0_pay7 (F := Ideal)) (ix2 h 0) = ((M : ℝ) : EReal) := by
    rw [pay11_apply, pay7_apply, hM]
    exact max_eq_right bot_le
  obtain ⟨c2, c3⟩ := row_core i x0 x1 x2 (k0_pay6 (F := Ideal)) (k0_pay7 (F := Ideal)) (k0_pay8 (F := Ideal)) q kv hx0 hx2 h M hμ
  refine ⟨M, ?_, ?_, fun d => ?_⟩
  · rw [pay4_eq]; exact hμ
  · rw [c2, pay7_apply, pay8_apply, EReal.bot_sub, Ideal.exp_bot, zero_mul, zero_add]
  · rw [c3 d, pay7_apply, pay6_apply, EReal.bot_sub, Ideal.exp_bot, zero_mul, zero_add]

/-- The output block: the quotient of the value sums by the weight sum, row by row. -/
theorem row_out (acc : Vec Ideal S128x512 .f32) (l : Vec Ideal S128x1 .f32) (h : Fin 128) (d : Fin 512) (A L : ℝ)
    (hA : acc (ix2 h d) = ((A : ℝ) : EReal)) (hL : l (ix2 h 0) = ((L : ℝ) : EReal)) (hL0 : L ≠ 0) (z0 z1 : Fin 1) :
    k0_pay5 (F := Ideal) acc l (ix4 z0 z1 h d) = ((A / L : ℝ) : EReal) := by
  rw [pay5_apply, hA, hL]
  exact div_coe A L hL0

end SparseAttn.Row

end
-- ==== Proof.KInv.lean ====
/-
  The kernel's result array is the specification.

  The grid is (batch, tile): point `t` is tile `t % 8` of batch `t / 8`, its blocks are the batch's query rows, the
  batch's selected positions, and the 1024 key/value rows from position `1024 * (t % 8)` on. After point `t` the three
  carried buffers hold, for every head, a real shift `μ` and the two partial sweeps over the positions below
  `1024 * (t % 8 + 1)`: the multiplicity-weighted sums of `exp (score - μ)`, with and without the value channel. This is
  proved by induction on the point: a batch's first tile starts the sweep, every later tile rescales what the tile before
  left and adds its own 1024 terms. At a batch's last tile the sweep has covered all 8192 positions, the output block is
  the quotient of the two sums, the shift cancels and the multiplicities regroup into the sum over the selected list:
  the block written back is the batch's block of `G`. The 32 written blocks cover the result array.
-/
import proofs.«417074_j47682726920486_3_alg».proof.Proof.KSteps
import proofs.«417074_j47682726920486_3_alg».proof.Proof.KPay

set_option maxRecDepth 16384

noncomputable section

namespace Cert.KernelIdeal.Sweep

open Idealize.ShloMosaic Idealize.ShloMosaic.TcCoe Idealize.ShloMosaic.ValueIdx Idealize.SL.Sem
open Cert.KernelIdeal Cert.KernelIdeal.Gen Cert.KernelIdeal.Steps SparseAttn SparseAttn.Row
open Idealize.ShloMosaic.Pipeline (Dat)

variable (m : (ℓ : Loc nD τ sig) → Buf (Elt Ideal) ℓ) (ρ : Dev nD → PrngReg)

/-- The three argument arrays as the launch finds them. -/
abbrev Qa (c : Dev nD) : SQ.Idx → EReal := m ((c : Thread nD τ).loc main_arg0)
abbrev KVa (c : Dev nD) : SKV.Idx → EReal := m ((c : Thread nD τ).loc main_arg1)
abbrev Ia (c : Dev nD) : SI.Idx → BitVec 32 := m ((c : Thread nD τ).loc main_arg2)

theorem N_eq : cfg0.N = 256 := N_0

theorem lt_N {n : ℕ} (h : n < 256) : n < cfg0.N := lt_of_lt_of_eq h N_eq.symm

/-- The batch of point `t`. -/
abbrev bat (t : Fin cfg0.N) : Fin 32 := ⟨t.val / 8, by have := t.isLt; have := N_eq; omega⟩

/-- The printed index maps and the tile coordinate, decided over the grid. -/
theorem idx_facts : ∀ t : Fin cfg0.N,
    win0_0.index t (0 : Fin 4) = t.val / 8 ∧ win0_0.index t (1 : Fin 4) = 0 ∧ win0_0.index t (2 : Fin 4) = 0 ∧ win0_0.index t (3 : Fin 4) = 0
    ∧ win0_1.index t (0 : Fin 4) = t.val / 8 ∧ win0_1.index t (1 : Fin 4) = 0 ∧ win0_1.index t (2 : Fin 4) = 0 ∧ win0_1.index t (3 : Fin 4) = 0
    ∧ win0_2.index t (0 : Fin 4) = t.val / 8 ∧ win0_2.index t (1 : Fin 4) = t.val % 8 ∧ win0_2.index t (2 : Fin 4) = 0 ∧ win0_2.index t (3 : Fin 4) = 0
    ∧ win0_3.index t (0 : Fin 4) = t.val / 8 ∧ win0_3.index t (1 : Fin 4) = 0 ∧ win0_3.index t (2 : Fin 4) = 0 ∧ win0_3.index t (3 : Fin 4) = 0
    ∧ (grid0.coords t 1).val = t.val % 8 :=
  (by decide +kernel : ∀ t : Fin grid0.N, _)

/-! ## The blocks are the arrays read at the batch and the tile -/

theorem qblk_apply (c : Dev nD) (t : Fin cfg0.N) (z0 z1 : Fin 1) (h : Fin 128) (e : Fin 576) :
    qblk m c t (ix4 z0 z1 h e) = Qa m c (ix4 (bat t) (0 : Fin 1) h e) := by
  obtain ⟨e0, e1, e2, e3, -⟩ := idx_facts t
  show V m c main_arg0 (((cfg0.win 0).blk t).view.emb (ix4 z0 z1 h e)) = _
  refine congrArg (m ((c : Thread nD τ).loc main_arg0)) (funext fun a => Fin.ext ?_)
  have hz0 : z0.val = 0 := by omega
  have hz1 : z1.val = 0 := by omega
  match a with
  | ⟨0, _⟩ => show win0_0.index t (0 : Fin 4) * 1 + 1 * z0.val = t.val / 8; omega
  | ⟨1, _⟩ => show win0_0.index t (1 : Fin 4) * 1 + 1 * z1.val = 0; omega
  | ⟨2, _⟩ => show win0_0.index t (2 : Fin 4) * 128 + 1 * h.val = h.val; omega
  | ⟨3, _⟩ => show win0_0.index t (3 : Fin 4) * 576 + 1 * e.val = e.val; omega

theorem iblkI_apply (c : Dev nD) (t : Fin cfg0.N) (z0 z1 z2 : Fin 1) (k : Fin 2048) :
    iblkI m c t (ix4 z0 z1 z2 k) = Ia m c (ix4 (bat t) (0 : Fin 1) (0 : Fin 1) k) := by
  obtain ⟨-, -, -, -, e0, e1, e2, e3, -⟩ := idx_facts t
  show V m c main_arg2 (((cfg0.win 1).blk t).view.emb (ix4 z0 z1 z2 k)) = _
  refine congrArg (m ((c : Thread nD τ).loc main_arg2)) (funext fun a => Fin.ext ?_)
  have hz0 : z0.val = 0 := by omega
  have hz1 : z1.val = 0 := by omega
  have hz2 : z2.val = 0 := by omega
  match a with
  | ⟨0, _⟩ => show win0_1.index t (0 : Fin 4) * 1 + 1 * z0.val = t.val / 8; omega
  | ⟨1, _⟩ => show win0_1.index t (1 : Fin 4) * 1 + 1 * z1.val = 0; omega
  | ⟨2, _⟩ => show win0_1.index t (2 : Fin 4) * 1 + 1 * z2.val = 0; omega
  | ⟨3, _⟩ => show win0_1.index t (3 : Fin 4) * 2048 + 1 * k.val = k.val; omega

theorem kvblk_apply (c : Dev nD) (t : Fin cfg0.N) (z0 : Fin 1) (r : Fin 1024) (z2 : Fin 1) (e : Fin 576) :
    kvblk m c t (ix4 z0 r z2 e)
      = KVa m c (ix4 (bat t) (⟨t.val % 8 * 1024 + r.val, by have := r.isLt; omega⟩ : Fin 8192) (0 : Fin 1) e) := by
  obtain ⟨-, -, -, -, -, -, -, -, e0, e1, e2, e3, -⟩ := idx_facts t
  show V m c main_arg1 (((cfg0.win 2).blk t).view.emb (ix4 z0 r z2 e)) = _
  refine congrArg (m ((c : Thread nD τ).loc main_arg1)) (funext fun a => Fin.ext ?_)
  have hz0 : z0.val = 0 := by omega
  have hz2 : z2.val = 0 := by omega
  match a with
  | ⟨0, _⟩ => show win0_2.index t (0 : Fin 4) * 1 + 1 * z0.val = t.val / 8; omega
  | ⟨1, _⟩ => show win0_2.index t (1 : Fin 4) * 1024 + 1 * r.val = t.val % 8 * 1024 + r.val; omega
  | ⟨2, _⟩ => show win0_2.index t (2 : Fin 4) * 1 + 1 * z2.val = 0; omega
  | ⟨3, _⟩ => show win0_2.index t (3 : Fin 4) * 576 + 1 * e.val = e.val; omega

/-- The tile's multiplicities are the batch's multiplicities at the tile's absolute positions. -/
theorem tileCount_eq (c : Dev nD) (t : Fin cfg0.N) (r : Fin 1024) :
    tileCount (iblkI m c t) (grid0.coords t 1).val r = mult (idxN (Ia m c) (bat t)) (t.val % 8 * 1024 + r.val) := by
  have hc : (grid0.coords t 1).val = t.val % 8 := (idx_facts t).2.2.2.2.2.2.2.2.2.2.2.2.2.2.2.2
  unfold tileCount mult idxN
  rw [hc]
  refine Finset.sum_congr rfl fun k _ => ?_
  rw [iblkI_apply m c t 0 0 0 k]

/-! ## The invariant -/

/-- After point `n` (of batch `b`, having swept the positions below `J`): per head a real shift and the two partial sweeps. -/
def InvAt (c : Dev nD) (n : ℕ) (hn : n < cfg0.N) (b : Fin 32) (J : ℕ) : Prop :=
  ∀ h : Fin 128, ∃ μ : ℝ,
    (outsAt0 m c n hn).2.2.1 (ix2 h (0 : Fin 1)) = ((μ : ℝ) : EReal)
    ∧ (outsAt0 m c n hn).2.2.2 (ix2 h (0 : Fin 1))
        = ((∑ j ∈ Finset.range J, Real.exp (score (Qa m c) (KVa m c) b h j - μ) * mult (idxN (Ia m c) b) j : ℝ) : EReal)
    ∧ ∀ d : Fin 512, (outsAt0 m c n hn).2.1 (ix2 h d)
        = ((∑ j ∈ Finset.range J, Real.exp (score (Qa m c) (KVa m c) b h j - μ) * (mult (idxN (Ia m c) b) j * value (KVa m c) b d j) : ℝ) : EReal)

variable {m}

/-- The blocks of point `t` hold reals: the batch's query rows and the tile's key/value rows. -/
theorem qblk_real {c : Dev nD} (A : Admissible (Qa m c) (KVa m c) (Ia m c)) (t : Fin cfg0.N) (h : Fin 128) (e : Fin 576) :
    qblk m c t (ix4 (0 : Fin 1) (0 : Fin 1) h e) = ((qR (Qa m c) (bat t) h e : ℝ) : EReal) :=
  (qblk_apply m c t 0 0 h e).trans (A.q_eq (bat t) 0 h e)

theorem kvblk_real {c : Dev nD} (A : Admissible (Qa m c) (KVa m c) (Ia m c)) (t : Fin cfg0.N) (r : Fin 1024) (e : Fin 576) :
    kvblk m c t (ix4 (0 : Fin 1) r (0 : Fin 1) e) = ((kvR (KVa m c) (bat t) (t.val % 8 * 1024 + r.val) e : ℝ) : EReal) :=
  (kvblk_apply m c t 0 r 0 e).trans (A.kv_eq (bat t) ⟨t.val % 8 * 1024 + r.val, by have := r.isLt; omega⟩ 0 e)

/-- A batch's first tile starts the sweep. -/
theorem inv_first {c : Dev nD} (A : Admissible (Qa m c) (KVa m c) (Ia m c)) (t : Fin cfg0.N) (h0 : t.val % 8 = 0) :
    InvAt m c t.val t.isLt (bat t) (t.val % 8 * 1024 + 1024) := by
  intro h
  obtain ⟨μ', e1, e2, e3⟩ := row_first (grid0.coords t) (qblk m c t) (iblkI m c t) (kvblk m c t)
    (fun h e => qR (Qa m c) (bat t) h e) (fun r e => kvR (KVa m c) (bat t) (t.val % 8 * 1024 + r.val) e)
    (fun h e => qblk_real A t h e) (fun r e => kvblk_real A t r e) h
  refine ⟨μ', ?_, ?_, ?_⟩
  · exact (congrFun (first_max_at m c t h0) (ix2 h (0 : Fin 1))).trans e1
  · refine (congrFun (first_sum_at m c t h0) (ix2 h (0 : Fin 1))).trans (e2.trans (congrArg Real.toEReal ?_))
    have hs := sweep_step (fun j => score (Qa m c) (KVa m c) (bat t) h j) (fun j => mult (idxN (Ia m c) (bat t)) j)
      (t.val % 8 * 1024) 1024 μ' μ'
    rw [h0] at hs ⊢
    rw [← hs]
    simp only [Nat.zero_mul, Finset.range_zero, Finset.sum_empty, mul_zero, zero_add]
    refine Finset.sum_congr rfl fun r _ => ?_
    have hc := tileCount_eq m c t r
    rw [h0, Nat.zero_mul, Nat.zero_add] at hc
    rw [hc]
    rfl
  · intro d
    refine (congrFun (first_acc_at m c t h0) (ix2 h d)).trans ((e3 d).trans (congrArg Real.toEReal ?_))
    have hs := sweep_step (fun j => score (Qa m c) (KVa m c) (bat t) h j)
      (fun j => mult (idxN (Ia m c) (bat t)) j * value (KVa m c) (bat t) d j) (t.val % 8 * 1024) 1024 μ' μ'
    rw [h0] at hs ⊢
    rw [← hs]
    simp only [Nat.zero_mul, Finset.range_zero, Finset.sum_empty, mul_zero, zero_add]
    refine Finset.sum_congr rfl fun r _ => ?_
    have hc := tileCount_eq m c t r
    rw [h0, Nat.zero_mul, Nat.zero_add] at hc
    rw [hc]
    rfl

/-- A later tile rescales what the tile before left and adds its own 1024 positions. -/
theorem inv_next {c : Dev nD} (A : Admissible (Qa m c) (KVa m c) (Ia m c)) (t : Fin cfg0.N) (h0 : ¬t.val % 8 = 0)
    (ih : InvAt m c (t.val - 1) (Nat.lt_of_le_of_lt (Nat.sub_le _ _) t.isLt) (bat t) (t.val % 8 * 1024)) :
    InvAt m c t.val t.isLt (bat t) (t.val % 8 * 1024 + 1024) := by
  intro h
  obtain ⟨μ, i1, i2, i3⟩ := ih h
  obtain ⟨μ', e1, e2, e3⟩ := row_step (grid0.coords t) (qblk m c t) (iblkI m c t) (kvblk m c t)
    (prevAt m c t).2.1 (prevAt m c t).2.2.1 (prevAt m c t).2.2.2
    (fun h e => qR (Qa m c) (bat t) h e) (fun r e => kvR (KVa m c) (bat t) (t.val % 8 * 1024 + r.val) e)
    (fun h e => qblk_real A t h e) (fun r e => kvblk_real A t r e) h μ _ _ i1 i2 i3
  refine ⟨μ', ?_, ?_, ?_⟩
  · exact (congrFun (next_max_at m c t h0) (ix2 h (0 : Fin 1))).trans e1
  · refine (congrFun (next_sum_at m c t h0) (ix2 h (0 : Fin 1))).trans (e2.trans (congrArg Real.toEReal ?_))
    refine Eq.trans ?_ (sweep_step (fun j => score (Qa m c) (KVa m c) (bat t) h j) (fun j => mult (idxN (Ia m c) (bat t)) j)
      (t.val % 8 * 1024) 1024 μ μ')
    refine congrArg₂ (· + ·) rfl (Finset.sum_congr rfl fun r _ => ?_)
    rw [tileCount_eq m c t r]
    rfl
  · intro d
    refine (congrFun (next_acc_at m c t h0) (ix2 h d)).trans ((e3 d).trans (congrArg Real.toEReal ?_))
    refine Eq.trans ?_ (sweep_step (fun j => score (Qa m c) (KVa m c) (bat t) h j)
      (fun j => mult (idxN (Ia m c) (bat t)) j * value (KVa m c) (bat t) d j) (t.val % 8 * 1024) 1024 μ μ')
    refine congrArg₂ (· + ·) rfl (Finset.sum_congr rfl fun r _ => ?_)
    rw [tileCount_eq m c t r]
    rfl

/-- The invariant at every point. -/
theorem inv_all {c : Dev nD} (A : Admissible (Qa m c) (KVa m c) (Ia m c)) :
    ∀ (n : ℕ) (hn : n < cfg0.N), InvAt m c n hn (bat ⟨n, hn⟩) (n % 8 * 1024 + 1024)
  | 0, hn => inv_first A ⟨0, hn⟩ rfl
  | n + 1, hn => by
    by_cases h0 : (n + 1) % 8 = 0
    · exact inv_first A ⟨n + 1, hn⟩ h0
    · refine inv_next A ⟨n + 1, hn⟩ h0 ?_
      have ih := inv_all A n (Nat.lt_of_succ_lt hn)
      have hb : bat (⟨n, Nat.lt_of_succ_lt hn⟩ : Fin cfg0.N) = bat (⟨n + 1, hn⟩ : Fin cfg0.N) := Fin.ext (by
        show n / 8 = (n + 1) / 8
        omega)
      have hJ : n % 8 * 1024 + 1024 = (n + 1) % 8 * 1024 := by omega
      rw [hb, hJ] at ih
      exact ih

/-! ## The written blocks and the result array -/

/-- What a batch's last tile writes back is the batch's block of the specification. -/
theorem flushed_eq {c : Dev nD} (A : Admissible (Qa m c) (KVa m c) (Ia m c)) (t : Fin cfg0.N)
    (hf : (cfg0.win 3).flush t = true) :
    (dats m 0 c).flushed 3 t = ((cfg0.win 3).blk t).view.read (Elt Ideal) (G (Qa m c) (KVa m c) (Ia m c)) := by
  have h1 : t.val % 8 = 7 := (flush0_3 t).mp hf
  rw [Cert.KernelIdeal.Value.flushed3 m c t, last_out_at m c t h1]
  funext j
  revert j
  show ∀ j : S1x1x128x512.Idx, k0_pay5 (outsAt0 m c t.val t.isLt).2.1 (outsAt0 m c t.val t.isLt).2.2.2 j
    = G (Qa m c) (KVa m c) (Ia m c) (((cfg0.win 3).blk t).view.emb j)
  intro j
  obtain ⟨z0, z1, h, d, rfl⟩ : ∃ (z0 : Fin 1) (z1 : Fin 1) (h : Fin 128) (d : Fin 512), j = ix4 z0 z1 h d :=
    ⟨j 0, j 1, j 2, j 3, eq_ix4 j⟩
  obtain ⟨μ, i1, i2, i3⟩ := inv_all A t.val t.isLt h
  have hJ : t.val % 8 * 1024 + 1024 = 8192 := by omega
  rw [hJ] at i2 i3
  have hpos := sweep_den_pos (K := 2048) (by norm_num) (score (Qa m c) (KVa m c) (bat t) h) (idxN (Ia m c) (bat t)) 8192
    (fun k => A.idx_lt (bat t) k) μ
  rw [row_out _ _ h d _ _ (i3 d) i2 (ne_of_gt hpos) z0 z1]
  have hemb : ((cfg0.win 3).blk t).view.emb (ix4 z0 z1 h d) = ix4 (bat t) (0 : Fin 1) h d := by
    obtain ⟨-, -, -, -, -, -, -, -, -, -, -, -, e0, e1, e2, e3, -⟩ := idx_facts t
    have hz0 : z0.val = 0 := by omega
    have hz1 : z1.val = 0 := by omega
    funext a
    apply Fin.ext
    match a with
    | ⟨0, _⟩ => show win0_3.index t (0 : Fin 4) * 1 + 1 * z0.val = t.val / 8; omega
    | ⟨1, _⟩ => show win0_3.index t (1 : Fin 4) * 1 + 1 * z1.val = 0; omega
    | ⟨2, _⟩ => show win0_3.index t (2 : Fin 4) * 128 + 1 * h.val = h.val; omega
    | ⟨3, _⟩ => show win0_3.index t (3 : Fin 4) * 512 + 1 * d.val = d.val; omega
  rw [hemb, G_ix4]
  refine congrArg Real.toEReal ?_
  exact sweep_form (K := 2048) (by norm_num) (score (Qa m c) (KVa m c) (bat t) h) (value (KVa m c) (bat t) d)
    (idxN (Ia m c) (bat t)) 8192 (fun k => A.idx_lt (bat t) k) μ

/-- An index of the result array is in point `t`'s block iff each coordinate is in the block's range on its axis. -/
theorem mem_blk (t : Fin cfg0.N) (i : S32x1x128x512.Idx) :
    i ∈ ((cfg0.win 3).blk t).view.set ↔ ∀ a : Fin 4, win0_3.index t a * S1x1x128x512.size a ≤ (i a).val
      ∧ (i a).val < win0_3.index t a * S1x1x128x512.size a + S1x1x128x512.size a := by
  show i ∈ ((View.whole main_v0).slice (win0_3.rect t)).set ↔ _
  rw [View.set_slice_whole, Rect.mem_set_unit]
  exact Iff.rfl

/-- Every index of the result array lies in the block some batch's last tile writes back. -/
theorem covered (i : S32x1x128x512.Idx) :
    ∃ t : Fin cfg0.N, (cfg0.win 3).flush t = true ∧ i ∈ ((cfg0.win 3).blk t).view.set := by
  have hi0 : (i 0).val < 32 := (i 0).isLt
  have hi1 : (i 1).val < 1 := (i 1).isLt
  have hi2 : (i 2).val < 128 := (i 2).isLt
  have hi3 : (i 3).val < 512 := (i 3).isLt
  refine ⟨⟨8 * (i 0).val + 7, lt_N (by omega)⟩, (flush0_3 _).mpr (by show (8 * (i 0).val + 7) % 8 = 7; omega), ?_⟩
  rw [mem_blk]
  obtain ⟨-, -, -, -, -, -, -, -, -, -, -, -, e0, e1, e2, e3, -⟩ := idx_facts ⟨8 * (i 0).val + 7, lt_N (by omega)⟩
  have e0' : win0_3.index ⟨8 * (i 0).val + 7, lt_N (by omega)⟩ (0 : Fin 4) = (i 0).val := by
    rw [e0]; show (8 * (i 0).val + 7) / 8 = (i 0).val; omega
  intro a
  match a with
  | ⟨0, _⟩ => show win0_3.index _ (0 : Fin 4) * 1 ≤ (i 0).val ∧ (i 0).val < win0_3.index _ (0 : Fin 4) * 1 + 1; omega
  | ⟨1, _⟩ => show win0_3.index _ (1 : Fin 4) * 1 ≤ (i 1).val ∧ (i 1).val < win0_3.index _ (1 : Fin 4) * 1 + 1; omega
  | ⟨2, _⟩ => show win0_3.index _ (2 : Fin 4) * 128 ≤ (i 2).val ∧ (i 2).val < win0_3.index _ (2 : Fin 4) * 128 + 128; omega
  | ⟨3, _⟩ => show win0_3.index _ (3 : Fin 4) * 512 ≤ (i 3).val ∧ (i 3).val < win0_3.index _ (3 : Fin 4) * 512 + 512; omega

/-- The result array after the run is the specification of the argument arrays. -/
theorem final {c : Dev nD} (A : Admissible (Qa m c) (KVa m c) (Ia m c)) :
    (dats m 0 c).arrAt 3 cfg0.N = G (Qa m c) (KVa m c) (Ia m c) :=
  (dats m 0 c).arrAt_eq_of_cover 3 (G (Qa m c) (KVa m c) (Ia m c)) (fun t hf => flushed_eq A t hf) covered

variable (m)

/-- The kernel's run with its result array named: the specification of the arguments, the arguments unchanged. -/
theorem run (hA : ∀ c : Dev nD, Admissible (Qa m c) (KVa m c) (Ia m c)) :
    θ_run defs (onTc (τ := τ) (main (F := Ideal))) ⟨m, fun _ => 0, ρ⟩ fun r => ∀ c : Dev nD,
      r.2.mem ((c : Thread nD τ).loc main_v0) = G (Qa m c) (KVa m c) (Ia m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final (hA c)), (h c).2⟩)
    (Cert.KernelIdeal.Value.run_blocks m ρ)

end Cert.KernelIdeal.Sweep

end
-- ==== Proof.RefScores.lean ====
/-
  The reference's gathered rows and masked scores, read at an index.

  With every selected position inside the cache (`Admissible`), jnp's negative-index wrap and the gather's clamp are the
  identity, so the gathered array [32,1,1,2048,576] holds at (b, ·, ·, k, e) channel `e` of the row at position
  `idxN I b k`; the causal and range mask is all true, so the masked score array [32,1,1,128,2048] holds at
  (b, ·, ·, h, k) the score of that position for head `h`: the 576-channel dot product times the scale.
-/
import proofs.«417074_j47682726920486_3_alg».proof.Proof.Gen.ReferenceIdeal.Read
import proofs.«417074_j47682726920486_3_alg».proof.Proof.Spec
import Idealize.ShloMosaic.Lib.Pipeline.Value
import Idealize.ShloMosaic.Lib.ValueLayout
import Idealize.ShloMosaic.PureOps.Ideal.Laws
import Idealize.ShloMosaic.Lib.Affine

noncomputable section

namespace SparseAttn.Ref

open Idealize.ShloMosaic Idealize.ShloMosaic.ValueIdx Cert.ReferenceIdeal Cert.ReferenceIdeal.Gen Cert.ReferenceIdeal.Read SparseAttn

/-- A word below 8192 read as a signed integer is its natural value. -/
theorem toInt_of_lt_8192 {x : BitVec 32} (h : x.toNat < 8192) : x.toInt = (x.toNat : Int) :=
  BitVec.toInt_eq_toNat_of_lt (by omega)

/-- The batch iota's column of the index triples: the batch number, never negative, so unwrapped. -/
theorem triple_col0 (I : SI.Idx → BitVec 32) (b : Fin 32) (z1 z2 : Fin 1) (k : Fin 2048) :
    val_main_v24 (F := Ideal) I (ix5 b z1 z2 k (0 : Fin 3)) = BitVec.ofNat 32 b.val := by
  unfold val_main_v24
  refine (concatenate_apply_piece (4 : Fin 5)
    [⟨S32x1x1x2048x1, val_main_v21 (F := Ideal)⟩, ⟨S32x1x1x2048x1, val_main_v22 (F := Ideal) I⟩,
      ⟨S32x1x1x2048x1, val_main_v23 (F := Ideal)⟩] _ (ix5 b z1 z2 k (0 : Fin 3)) 0 (Nat.zero_lt_succ _) S32x1x1x2048x1
    (val_main_v21 (F := Ideal)) rfl rfl 0 rfl (ix5 b z1 z2 k (0 : Fin 1)) ?_ ?_).trans ?_
  · intro c hc
    match c with
    | ⟨0, _⟩ => rfl
    | ⟨1, _⟩ => rfl
    | ⟨2, _⟩ => rfl
    | ⟨3, _⟩ => rfl
    | ⟨4, _⟩ => exact absurd rfl hc
  · rfl
  · rw [val_main_v21_apply, val_main_v19_apply, val_main_v8_apply, val_main_v5_apply, val_main_v1_apply,
      val_main_v0_apply, val_main_v4_apply, val_main_c_apply]
    show Scalar.select (IntOp.cmpi .slt (BitVec.ofNat 32 b.val) 0#32) _ (BitVec.ofNat 32 b.val) = _
    unfold Scalar.select
    rw [if_neg]
    intro h
    have hb := b.isLt
    have h' := IntOp.cmpi_slt.1 h
    rw [BitVec.toInt_eq_toNat_of_lt (by rw [BitVec.toNat_ofNat]; omega),
      show (0#32 : BitVec 32).toInt = 0 from by decide] at h'
    omega

/-- The positions' column of the index triples: the selected position itself, never negative, so unwrapped. -/
theorem triple_col1 (I : SI.Idx → BitVec 32) (hI : ∀ i, (I i).toNat < 8192) (b : Fin 32) (z1 z2 : Fin 1) (k : Fin 2048) :
    val_main_v24 (F := Ideal) I (ix5 b z1 z2 k (1 : Fin 3)) = I (ix4 b 0 0 k) := by
  unfold val_main_v24
  refine (concatenate_apply_piece (4 : Fin 5)
    [⟨S32x1x1x2048x1, val_main_v21 (F := Ideal)⟩, ⟨S32x1x1x2048x1, val_main_v22 (F := Ideal) I⟩,
      ⟨S32x1x1x2048x1, val_main_v23 (F := Ideal)⟩] _ (ix5 b z1 z2 k (1 : Fin 3)) 1 (Nat.succ_lt_succ (Nat.zero_lt_succ _)) S32x1x1x2048x1
    (val_main_v22 (F := Ideal) I) rfl rfl 1 rfl (ix5 b z1 z2 k (0 : Fin 1)) ?_ ?_).trans ?_
  · intro c hc
    match c with
    | ⟨0, _⟩ => rfl
    | ⟨1, _⟩ => rfl
    | ⟨2, _⟩ => rfl
    | ⟨3, _⟩ => rfl
    | ⟨4, _⟩ => exact absurd rfl hc
  · rfl
  · have hj : idx_main_v22 (ix5 b z1 z2 k (0 : Fin 1)) = ix4 b 0 0 k := by
      funext a
      match a with
      | ⟨0, _⟩ => rfl
      | ⟨1, _⟩ => rfl
      | ⟨2, _⟩ => rfl
      | ⟨3, _⟩ => rfl
    rw [val_main_v22_apply, val_main_v13_apply, val_main_v10_apply, val_main_v9_apply, val_main_c_1_apply, hj]
    unfold Scalar.select
    rw [if_neg]
    intro h
    have h' := IntOp.cmpi_slt.1 h
    rw [toInt_of_lt_8192 (hI _), show (0#32 : BitVec 32).toInt = 0 from by decide] at h'
    omega

/-- The group iota's column of the index triples: the one group, number zero. -/
theorem triple_col2 (I : SI.Idx → BitVec 32) (b : Fin 32) (z1 z2 : Fin 1) (k : Fin 2048) :
    val_main_v24 (F := Ideal) I (ix5 b z1 z2 k (2 : Fin 3)) = 0#32 := by
  unfold val_main_v24
  refine (concatenate_apply_piece (4 : Fin 5)
    [⟨S32x1x1x2048x1, val_main_v21 (F := Ideal)⟩, ⟨S32x1x1x2048x1, val_main_v22 (F := Ideal) I⟩,
      ⟨S32x1x1x2048x1, val_main_v23 (F := Ideal)⟩] _ (ix5 b z1 z2 k (2 : Fin 3)) 2 (Nat.succ_lt_succ (Nat.succ_lt_succ (Nat.zero_lt_succ _))) S32x1x1x2048x1
    (val_main_v23 (F := Ideal)) rfl rfl 2 rfl (ix5 b z1 z2 k (0 : Fin 1)) ?_ ?_).trans ?_
  · intro c hc
    match c with
    | ⟨0, _⟩ => rfl
    | ⟨1, _⟩ => rfl
    | ⟨2, _⟩ => rfl
    | ⟨3, _⟩ => rfl
    | ⟨4, _⟩ => exact absurd rfl hc
  · rfl
  · rw [val_main_v23_apply, val_main_v20_apply, val_main_v18_apply, val_main_v15_apply, val_main_v3_apply,
      val_main_v2_apply, val_main_v14_apply, val_main_c_3_apply]
    rfl

/-- The gather's dimension numbers, under a short name. -/
abbrev GD : GatherDims S32x8192x1x576 S32x1x1x2048x3 S32x1x1x2048x576 :=
  gather_S32x8192x1x576_S32x1x1x2048x3_S32x1x1x2048x576_4_012_n_n_012_4_111576

/-- Where the gather reads component `c` of its start index for the result index (b, ·, ·, k, e): the index triples at
    (b, ·, ·, k, c). -/
theorem si_idx (b : Fin 32) (z1 z2 : Fin 1) (k : Fin 2048) (e : Fin 576) (c : Fin GD.startIndexMap.length) :
    GD.siIdx (ix5 b z1 z2 k e) c = ix5 b z1 z2 k (⟨c.val, c.isLt⟩ : Fin 3) := by
  funext a
  refine Fin.ext ?_
  match a with
  | ⟨0, _⟩ => rfl
  | ⟨1, _⟩ => rfl
  | ⟨2, _⟩ => rfl
  | ⟨3, _⟩ => rfl
  | ⟨4, _⟩ => rfl

/-- The operand index the gather reads at (b, ·, ·, k, e): batch `b`, the selected position (inside the cache, so not
    clamped), the one group, channel `e`. -/
theorem operand_idx (I : SI.Idx → BitVec 32) (hI : ∀ i, (I i).toNat < 8192) (b : Fin 32) (z1 z2 : Fin 1)
    (k : Fin 2048) (e : Fin 576) :
    GD.operandIdx (ix5 b z1 z2 k e) (val_main_v24 (F := Ideal) I) = ix4 b ⟨idxN I b k, hI _⟩ 0 e := by
  funext a
  refine Fin.ext ?_
  match a with
  | ⟨0, _⟩ =>
    show GD.start (ix5 b z1 z2 k e) (val_main_v24 (F := Ideal) I) 0 + GD.batchCoord (ix5 b z1 z2 k e) 0
      + GD.offCoord (ix5 b z1 z2 k e) 0 = b.val
    rw [GatherDims.batchCoord_eq_zero _ _ _ List.not_mem_nil,
      GatherDims.offCoord_eq_zero _ _ _ (fun h => ((GatherDims.mem_sKept _ _).mp h).1 (by decide))]
    unfold GatherDims.start
    rw [dif_pos (by decide), si_idx]
    show min (BitVec.toInt (val_main_v24 (F := Ideal) I (ix5 b z1 z2 k (0 : Fin 3)))).toNat (32 - 1) + 0 + 0 = b.val
    have hb := b.isLt
    rw [triple_col0, BitVec.toInt_eq_toNat_of_lt (by rw [BitVec.toNat_ofNat]; omega), Int.toNat_natCast,
      BitVec.toNat_ofNat]
    omega
  | ⟨1, _⟩ =>
    show GD.start (ix5 b z1 z2 k e) (val_main_v24 (F := Ideal) I) 1 + GD.batchCoord (ix5 b z1 z2 k e) 1
      + GD.offCoord (ix5 b z1 z2 k e) 1 = idxN I b k
    rw [GatherDims.batchCoord_eq_zero _ _ _ List.not_mem_nil,
      GatherDims.offCoord_eq_zero _ _ _ (fun h => ((GatherDims.mem_sKept _ _).mp h).1 (by decide))]
    unfold GatherDims.start
    rw [dif_pos (by decide), si_idx]
    show min (BitVec.toInt (val_main_v24 (F := Ideal) I (ix5 b z1 z2 k (1 : Fin 3)))).toNat (8192 - 1) + 0 + 0
      = (I (ix4 b 0 0 k)).toNat
    have hk := hI (ix4 b 0 0 k)
    rw [triple_col1 I hI, toInt_of_lt_8192 hk, Int.toNat_natCast]
    omega
  | ⟨2, _⟩ =>
    show GD.start (ix5 b z1 z2 k e) (val_main_v24 (F := Ideal) I) 2 + GD.batchCoord (ix5 b z1 z2 k e) 2
      + GD.offCoord (ix5 b z1 z2 k e) 2 = 0
    rw [GatherDims.batchCoord_eq_zero _ _ _ List.not_mem_nil,
      GatherDims.offCoord_eq_zero _ _ _ (fun h => ((GatherDims.mem_sKept _ _).mp h).1 (by decide))]
    unfold GatherDims.start
    rw [dif_pos (by decide), si_idx]
    show min (BitVec.toInt (val_main_v24 (F := Ideal) I (ix5 b z1 z2 k (2 : Fin 3)))).toNat (1 - 1) + 0 + 0 = 0
    omega
  | ⟨3, _⟩ =>
    show GD.start (ix5 b z1 z2 k e) (val_main_v24 (F := Ideal) I) 3 + GD.batchCoord (ix5 b z1 z2 k e) 3
      + GD.offCoord (ix5 b z1 z2 k e) 3 = e.val
    rw [GatherDims.batchCoord_eq_zero _ _ _ List.not_mem_nil]
    unfold GatherDims.start GatherDims.offCoord
    rw [dif_neg (by decide), dif_pos (by decide)]
    show 0 + 0 + e.val = e.val
    omega

/-- The gathered rows: channel `e` of the row the `k`-th selected entry of batch `b` points at. -/
theorem gathered_apply (Q : SQ.Idx → EReal) (KV : SKV.Idx → EReal) (I : SI.Idx → BitVec 32) (A : Admissible Q KV I)
    (b : Fin 32) (z1 z2 : Fin 1) (k : Fin 2048) (e : Fin 576) :
    val_main_v25 (F := Ideal) KV I (ix5 b z1 z2 k e) = ((kvR KV b (idxN I b k) e : ℝ) : EReal) := by
  unfold val_main_v25 Host.gather
  show KV (GD.operandIdx (ix5 b z1 z2 k e) (val_main_v24 (F := Ideal) I)) = _
  rw [operand_idx I A.hI]
  exact A.kv_eq b ⟨idxN I b k, A.hI _⟩ 0 e

/-- The masked scores: every selected entry is valid, and its score is the scaled dot product. -/
theorem scores_apply (Q : SQ.Idx → EReal) (KV : SKV.Idx → EReal) (I : SI.Idx → BitVec 32) (A : Admissible Q KV I)
    (b : Fin 32) (z1 z2 : Fin 1) (h : Fin 128) (k : Fin 2048) :
    val_main_v42 (F := Ideal) Q KV I (ix5 b z1 z2 h k) = ((score Q KV b h (idxN I b k) : ℝ) : EReal) := by
  have hk := A.hI (ix4 b 0 0 k)
  -- the mask holds at every selected entry
  have hj : idx_main_v41 (idx_main_call0_v1 (ix5 b z1 z2 h k)) = ix4 b 0 0 k := by
    funext a
    match a with
    | ⟨0, _⟩ => rfl
    | ⟨1, _⟩ => rfl
    | ⟨2, _⟩ => rfl
    | ⟨3, _⟩ => rfl
  have hmask : val_main_call0_v1 (F := Ideal) I (ix5 b z1 z2 h k) = 1#1 := by
    rw [val_main_call0_v1_apply, val_main_v41_apply, hj, val_main_v40_apply]
    refine IntOp.andi_eq_one.2 ⟨?_, ?_⟩
    · rw [val_main_v37_apply]
      refine IntOp.cmpi_sle.2 ?_
      rw [val_main_v34_apply, val_main_v33_apply, val_main_c_6_apply, val_main_v36_apply, val_main_v35_apply,
        val_main_v32_apply, val_main_v31_apply, val_main_c_5_apply, val_main_v30_apply]
      show (I (ix4 b 0 0 k) * 1#32).toInt ≤ (8191#32 + BitVec.ofNat 32 0 : BitVec 32).toInt
      rw [BitVec.mul_one, toInt_of_lt_8192 hk,
        show (8191#32 + BitVec.ofNat 32 0 : BitVec 32).toInt = 8191 from by decide]
      omega
    · rw [val_main_v39_apply, val_main_v38_apply, val_main_c_7_apply]
      refine IntOp.cmpi_slt.2 ?_
      rw [toInt_of_lt_8192 hk, show (8192#32 : BitVec 32).toInt = 8192 from by decide]
      omega
  -- the two operands of the contraction at channel `e`
  have hl : ∀ e : Fin 576, val_main_v26 (F := Ideal) Q (lidx_main_v27 (ix5 b z1 z2 h k) e) = ((qR Q b h e : ℝ) : EReal) := by
    intro e
    have hi : idx_main_v26 (lidx_main_v27 (ix5 b z1 z2 h k) e) = ix4 b 0 h e := by
      have h0 := b.isLt
      have h1 := z1.isLt
      have h2 := z2.isLt
      have h3 := h.isLt
      have h4 := e.isLt
      funext a
      refine Fin.ext ?_
      match a with
      | ⟨0, _⟩ =>
        show ((((b.val * 1 + z1.val) * 1 + z2.val) * 128 + h.val) * 576 + e.val) / 73728 = b.val
        omega
      | ⟨1, _⟩ => rfl
      | ⟨2, _⟩ =>
        show ((((b.val * 1 + z1.val) * 1 + z2.val) * 128 + h.val) * 576 + e.val) / 576 % 128 = h.val
        omega
      | ⟨3, _⟩ =>
        show ((((b.val * 1 + z1.val) * 1 + z2.val) * 128 + h.val) * 576 + e.val) % 576 = e.val
        omega
    rw [val_main_v26_apply, hi]
    exact A.q_eq b 0 h e
  have hr : ∀ e : Fin 576, val_main_v25 (F := Ideal) KV I (ridx_main_v27 (ix5 b z1 z2 h k) e)
      = ((kvR KV b (idxN I b k) e : ℝ) : EReal) := by
    intro e
    have hi : ridx_main_v27 (ix5 b z1 z2 h k) e = ix5 b z1 z2 k e := by
      funext a
      match a with
      | ⟨0, _⟩ => rfl
      | ⟨1, _⟩ => rfl
      | ⟨2, _⟩ => rfl
      | ⟨3, _⟩ => rfl
      | ⟨4, _⟩ => rfl
    rw [hi]
    exact gathered_apply Q KV I A b z1 z2 k e
  rw [val_main_v42_apply, hmask, select_one, val_main_v29_apply, val_main_v28_apply, val_main_cst_apply,
    val_main_v27_apply, Finset.sum_congr rfl (fun e _ => by rw [hl e, hr e])]
  show (∑ e : Fin 576, ((qR Q b h e : ℝ) : EReal) * ((kvR KV b (idxN I b k) e : ℝ) : EReal))
    * Ideal.ofBits .f32 0x3D2AAAAB#32 = _
  rw [scale_eq]
  unfold score
  simp only [← EReal.coe_mul, ← coe_sum]

end SparseAttn.Ref

end
-- ==== Proof.RefValue.lean ====
/-
  The reference's result is the specification.

  Over the masked scores (reals, one per selected entry) the reference takes the row maximum (a real: the row is
  nonempty), subtracts it, exponentiates, divides by the row sum and contracts the weights with the first 512 channels
  of the gathered rows. Over the reals that is the softmax-weighted list sum at the shift "row maximum", and a common
  shift cancels, so the result array is `G`.
-/
import proofs.«417074_j47682726920486_3_alg».proof.Proof.RefScores
import Mathlib.Data.EReal.Inv
import Mathlib.Data.Finset.Fold

noncomputable section

namespace SparseAttn.Ref

open Idealize.ShloMosaic Idealize.ShloMosaic.ValueIdx Cert.ReferenceIdeal Cert.ReferenceIdeal.Gen Cert.ReferenceIdeal.Read SparseAttn

/-- A maximum folded from −∞ over a nonempty finite family of reals is a real: it is at least one real member, so not
    −∞, and the start and every member lie strictly below +∞, so it is not +∞. -/
theorem fold_max_real {ι : Type*} (s : Finset ι) (hs : s.Nonempty) (f : ι → EReal) (hf : ∀ k, ∃ r : ℝ, f k = (r : EReal)) :
    ∃ μ : ℝ, s.fold max (⊥ : EReal) f = (μ : EReal) := by
  obtain ⟨a, ha⟩ := hs
  have h1 : s.fold max (⊥ : EReal) f ≠ ⊥ := by
    obtain ⟨r, hr⟩ := hf a
    have hle : ((r : ℝ) : EReal) ≤ s.fold max (⊥ : EReal) f :=
      (Finset.le_fold_max _).2 (Or.inr ⟨a, ha, le_of_eq hr.symm⟩)
    intro h
    rw [h] at hle
    exact absurd hle (not_le.2 (EReal.bot_lt_coe r))
  have h2 : s.fold max (⊥ : EReal) f ≠ ⊤ := by
    refine ne_of_lt ((Finset.fold_max_lt _).2 ⟨bot_lt_top, fun x _ => ?_⟩)
    obtain ⟨r, hr⟩ := hf x
    rw [hr]
    exact EReal.coe_lt_top r
  exact ⟨_, (EReal.coe_toReal h2 h1).symm⟩

/-- The quotient of two reals with a nonzero denominator, taken in the extended reals, is the real quotient. -/
theorem div_coe (a L : ℝ) (hL : L ≠ 0) : Ideal.div (a : EReal) (L : EReal) = ((a / L : ℝ) : EReal) := by
  unfold Ideal.div
  rw [if_neg (by exact_mod_cast hL), ← EReal.coe_inv, ← EReal.coe_mul, div_eq_mul_inv]

/-- The row maximum of the masked scores, joined with −∞, is a real. -/
theorem rowmax_real (Q : SQ.Idx → EReal) (KV : SKV.Idx → EReal) (I : SI.Idx → BitVec 32) (A : Admissible Q KV I)
    (b : Fin 32) (z1 z2 : Fin 1) (h : Fin 128) :
    ∃ μ : ℝ, val_main_v45 (F := Ideal) Q KV I (ix4 b z1 z2 h) = (μ : EReal) := by
  have hred : S32x1x1x128x2048.Reduces [4] S32x1x1x128 := by decide
  have hlift : ∀ k : Fin (S32x1x1x128x2048.size 4),
      hred.lift (ix4 b z1 z2 h) k = ix5 b z1 z2 h (⟨k.val, k.isLt⟩ : Fin 2048) := by
    intro k
    funext c
    apply Fin.ext
    match c with
    | ⟨0, _⟩ => rfl
    | ⟨1, _⟩ => rfl
    | ⟨2, _⟩ => rfl
    | ⟨3, _⟩ => rfl
    | ⟨4, _⟩ => rfl
  have h43 : val_main_v43 (F := Ideal) Q KV I (ix4 b z1 z2 h)
      = (Finset.univ : Finset (Fin (S32x1x1x128x2048.size 4))).fold max (⊥ : EReal)
          (val_main_v42 (F := Ideal) Q KV I ∘ hred.lift (ix4 b z1 z2 h)) := by
    unfold val_main_v43
    refine (Host.reduce_eq_fold_single FloatOps.maximumf _ _ reducesTo_S32x1x1x128x2048_S32x1x1x128_d4 hred h_S_ _).trans ?_
    rw [val_main_cst_9_apply]
    exact congrArg (fun c => Finset.fold max c _ _) neg_inf_eq
  obtain ⟨μ, hμ⟩ := fold_max_real (Finset.univ : Finset (Fin (S32x1x1x128x2048.size 4))) ⟨⟨0, by decide⟩, Finset.mem_univ _⟩
    (val_main_v42 (F := Ideal) Q KV I ∘ hred.lift (ix4 b z1 z2 h))
    (fun k => ⟨_, by rw [Function.comp_apply, hlift k]; exact scores_apply Q KV I A b z1 z2 h _⟩)
  refine ⟨μ, ?_⟩
  rw [val_main_v45_apply, val_main_v44_apply, val_main_cst_10_apply, h43, hμ]
  show max (Ideal.ofBits .f32 0xFF800000#32) (μ : EReal) = (μ : EReal)
  rw [neg_inf_eq]
  exact max_eq_right bot_le

/-- The reference's result array, as a function of its three arguments, is the specification. -/
theorem ref_eq_G (Q : SQ.Idx → EReal) (KV : SKV.Idx → EReal) (I : SI.Idx → BitVec 32) (A : Admissible Q KV I) :
    val_main_v56 (F := Ideal) Q KV I = G Q KV I := by
  funext i
  obtain ⟨b, z, h, d, rfl⟩ : ∃ (b : Fin 32) (z : Fin 1) (h : Fin 128) (d : Fin 512), i = ix4 b z h d :=
    ⟨i 0, i 1, i 2, i 3, eq_ix4 i⟩
  rw [G_ix4, val_main_v56_apply]
  -- the reshape reads the contraction's result at (b, ·, ·, h, d)
  have hi : idx_main_v56 (ix4 b z h d) = ix5 b (0 : Fin 1) (0 : Fin 1) h d := by
    have hb := b.isLt
    have hz := z.isLt
    have hh := h.isLt
    have hd := d.isLt
    funext a
    apply Fin.ext
    match a with
    | ⟨0, _⟩ => show (((b.val * 1 + z.val) * 128 + h.val) * 512 + d.val) / 65536 = b.val; omega
    | ⟨1, _⟩ => rfl
    | ⟨2, _⟩ => rfl
    | ⟨3, _⟩ => show (((b.val * 1 + z.val) * 128 + h.val) * 512 + d.val) / 512 % 128 = h.val; omega
    | ⟨4, _⟩ => show (((b.val * 1 + z.val) * 128 + h.val) * 512 + d.val) % 512 = d.val; omega
  rw [hi, val_main_v55_apply]
  -- the shift: the row maximum, a real
  obtain ⟨μ, hμ⟩ := rowmax_real Q KV I A b 0 0 h
  have hL : 0 < ∑ k' : Fin 2048, Real.exp (score Q KV b h (idxN I b k') - μ) :=
    list_den_pos (by norm_num) (score Q KV b h) (idxN I b) μ
  -- the shifted exponentials
  have h49 : ∀ k : Fin 2048, val_main_v49 (F := Ideal) Q KV I (ix5 b 0 0 h k)
      = ((Real.exp (score Q KV b h (idxN I b k) - μ) : ℝ) : EReal) := by
    intro k
    have e : idx_main_v46 (idx_main_v47 (ix5 b (0 : Fin 1) (0 : Fin 1) h k)) = ix4 b 0 0 h := by
      funext a
      apply Fin.ext
      match a with
      | ⟨0, _⟩ => rfl
      | ⟨1, _⟩ => rfl
      | ⟨2, _⟩ => rfl
      | ⟨3, _⟩ => rfl
    rw [val_main_v49_apply, val_main_v48_apply, scores_apply Q KV I A, val_main_v47_apply, val_main_v46_apply, e, hμ]
    show Ideal.exp (((score Q KV b h (idxN I b k) : ℝ) : EReal) - (μ : EReal)) = _
    rw [← EReal.coe_sub, Ideal.exp_coe]
  -- the row sum
  have h50 : val_main_v50 (F := Ideal) Q KV I (ix4 b 0 0 h)
      = ((∑ k' : Fin 2048, Real.exp (score Q KV b h (idxN I b k') - μ) : ℝ) : EReal) := by
    rw [val_main_v50_apply, val_main_cst_11_apply]
    show Ideal.ofBits .f32 0x00000000#32 + _ = _
    rw [Ideal.ofBits_zero_f32, zero_add, coe_sum]
    refine Finset.sum_congr rfl fun k _ => ?_
    have e : idx_main_v50 (ix4 b (0 : Fin 1) (0 : Fin 1) h) k = ix5 b 0 0 h k := by
      funext a
      apply Fin.ext
      match a with
      | ⟨0, _⟩ => rfl
      | ⟨1, _⟩ => rfl
      | ⟨2, _⟩ => rfl
      | ⟨3, _⟩ => rfl
      | ⟨4, _⟩ => rfl
    rw [e, h49]
  -- the weights
  have h53 : ∀ k : Fin 2048, val_main_v53 (F := Ideal) Q KV I (ix5 b 0 0 h k)
      = ((Real.exp (score Q KV b h (idxN I b k) - μ) / (∑ k' : Fin 2048, Real.exp (score Q KV b h (idxN I b k') - μ)) : ℝ) : EReal) := by
    intro k
    have e : idx_main_v51 (idx_main_v52 (ix5 b (0 : Fin 1) (0 : Fin 1) h k)) = ix4 b 0 0 h := by
      funext a
      apply Fin.ext
      match a with
      | ⟨0, _⟩ => rfl
      | ⟨1, _⟩ => rfl
      | ⟨2, _⟩ => rfl
      | ⟨3, _⟩ => rfl
    rw [val_main_v53_apply, h49, val_main_v52_apply, val_main_v51_apply, e, h50]
    exact div_coe _ _ (ne_of_gt hL)
  -- the first 512 channels of the gathered rows
  have h54 : ∀ k : Fin 2048, val_main_v54 (F := Ideal) KV I (ix5 b 0 0 k d)
      = ((value KV b d (idxN I b k) : ℝ) : EReal) := by
    intro k
    have e : idx_main_v54 (ix5 b (0 : Fin 1) (0 : Fin 1) k d)
        = ix5 b 0 0 k (⟨d.val, by have := d.isLt; omega⟩ : Fin 576) := by
      funext a
      apply Fin.ext
      match a with
      | ⟨0, _⟩ => rfl
      | ⟨1, _⟩ => rfl
      | ⟨2, _⟩ => rfl
      | ⟨3, _⟩ => rfl
      | ⟨4, _⟩ => rfl
    rw [val_main_v54_apply, e, gathered_apply Q KV I A]
    rfl
  -- the contraction is the softmax-weighted list sum at the shift μ
  unfold out
  rw [← list_form (K := 2048) (by norm_num) (score Q KV b h) (value KV b d) (idxN I b) μ, coe_sum]
  refine Finset.sum_congr rfl fun k _ => ?_
  have el : lidx_main_v55 (ix5 b (0 : Fin 1) (0 : Fin 1) h d) k = ix5 b 0 0 h k := by
    funext a
    apply Fin.ext
    match a with
    | ⟨0, _⟩ => rfl
    | ⟨1, _⟩ => rfl
    | ⟨2, _⟩ => rfl
    | ⟨3, _⟩ => rfl
    | ⟨4, _⟩ => rfl
  have er : ridx_main_v55 (ix5 b (0 : Fin 1) (0 : Fin 1) h d) k = ix5 b 0 0 k d := by
    funext a
    apply Fin.ext
    match a with
    | ⟨0, _⟩ => rfl
    | ⟨1, _⟩ => rfl
    | ⟨2, _⟩ => rfl
    | ⟨3, _⟩ => rfl
    | ⟨4, _⟩ => rfl
  rw [el, er, h53, h54, ← EReal.coe_mul]

end SparseAttn.Ref

end
-- ==== Proof.PreDecode.lean ====
/-
  What the precondition says, decoded: it is the conjunction of four whole-array tests — every entry of `Q` and of
  `KV` has absolute value below `+∞`, every entry of `I` is at least 0 and below 8192 as a signed word. An extended
  real whose absolute value is below `+∞` is a real; a signed 32-bit word in [0, 8192) is its own unsigned value.
-/
import proofs.«417074_j47682726920486_3_alg».proof.Proof.Gen.Pre_finite_inputs
import proofs.«417074_j47682726920486_3_alg».proof.Proof.Spec
import Idealize.ShloMosaic.Lib.ReduceAll
import Idealize.ShloMosaic.Lib.StableHlo.Predicate

noncomputable section

namespace SparseAttn.Pre

open Idealize.ShloMosaic Idealize.ShloMosaic.ValueIdx SparseAttn

/-- The rank-0 shape has one index. -/
instance subsingleton_scalar_idx : Subsingleton Cert.Pre_finite_inputs.S_.Idx :=
  ⟨fun a b => funext fun d => d.elim0⟩

/-- The positive-infinity pattern. -/
theorem pos_inf_eq : Ideal.ofBits .f32 0x7F800000#32 = (⊤ : EReal) := by
  simp [Ideal.ofBits, Ideal.ieee]

/-- An extended real whose absolute value is below `+∞` is a real. -/
theorem real_of_abs_lt_top (x : EReal) (h : max x (-x) < ⊤) : x = (((x.toReal : ℝ)) : EReal) := by
  induction x using EReal.rec with
  | bot => simp at h
  | coe r => simp
  | top => simp at h

/-- One element of the float test: the comparison being 1 says the entry is a real. -/
theorem real_of_test (x : EReal)
    (h : FloatOps.cmpf (F := Ideal) (φ := .f32) .olt (FloatOps.hostAbsf (F := Ideal) (φ := .f32) x) (Ideal.ofBits .f32 0x7F800000#32) = 1#1) :
    x = (((x.toReal : ℝ)) : EReal) := by
  refine real_of_abs_lt_top x ?_
  rw [pos_inf_eq] at h
  change BitVec.ofBool (decide (max x (-x) < ⊤)) = 1#1 at h
  cases hd : decide (max x (-x) < ⊤) with
  | true => exact of_decide_eq_true hd
  | false => rw [hd] at h; exact absurd h (by decide)

/-- One element of the two integer tests: a signed word in [0, 8192) has unsigned value below 8192. -/
theorem nat_lt_of_tests (w : BitVec 32) (h0 : IntOp.cmpi .sge w 0#32 = 1#1) (h1 : IntOp.cmpi .slt w 8192#32 = 1#1) :
    w.toNat < 8192 := by
  rw [IntOp.cmpi_sge] at h0
  rw [IntOp.cmpi_slt] at h1
  have e0 : (0#32 : BitVec 32).toInt = 0 := by decide
  have e1 : (8192#32 : BitVec 32).toInt = 8192 := by decide
  rw [e0] at h0
  rw [e1] at h1
  rw [BitVec.toInt_eq_toNat_cond] at h0 h1
  have := w.isLt
  split at h0 <;> omega

/-- The precondition, all ones, makes the three arrays admissible. -/
theorem admissible_of_pre (Q : SQ.Idx → EReal) (KV : SKV.Idx → EReal) (I : SI.Idx → BitVec 32)
    (h : Cert.Pre_finite_inputs.fn (F := Ideal) Q KV I = fun _ => 1#1) : Admissible Q KV I := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_⟩
  · exact real_of_test (Q i) (Host.reduce_andi_all _ _ _ _ _ h1 i)
  · exact real_of_test (KV i) (Host.reduce_andi_all _ _ _ _ _ h2 i)
  · exact nat_lt_of_tests (I i) (Host.reduce_andi_all _ _ _ _ _ h3 i) (Host.reduce_andi_all _ _ _ _ _ h4 i)

end SparseAttn.Pre

end
-- ==== Proof.lean ====
/-
  Sparse top-k latent attention, a streaming kernel against the gathered softmax.

  The reference gathers, per batch, the 2048 selected rows of the key/value cache, scores them against each of the 128
  query heads (a 576-channel dot product times the scale), masks, takes the softmax over the selected list and returns
  the weighted sum of the first 512 channels. The kernel never gathers: per batch it streams the whole cache in eight
  tiles of 1024 rows, weights every row by its MULTIPLICITY in the selected list (a compare-and-count, no matrix product),
  and keeps a running maximum with rescaled running sums, dividing once after the last tile.

  Over the extended reals, with finite inputs and every selected position inside the cache (the precondition), both are
  one function `G` of the arguments (Spec.lean): the reference's mask is all true, its negative-index wrap and the
  gather's clamp are the identity, its row maximum is some real, and a common shift cancels between the softmax's
  numerator and denominator (RefScores.lean, RefValue.lean, Softmax.lean); the kernel's running maximum is likewise some
  real after every tile, its two carried sums are the partial multiplicity-weighted sweeps at that shift (induction over
  the grid points, KInv.lean, over one row of the body read as real arithmetic, KPay.lean), and regrouping the selected
  entries by the row they point at turns the finished sweep into the list sum. Outside that domain the claim is false:
  a negative selected position wraps to a real row in the reference and matches no row in the kernel.

  The three frames are the generated frame certificates (the reference's is its generated run with the result dropped);
  the idealization rewrote nothing, so `preserves` is `True`.
-/
import proofs.«417074_j47682726920486_3_alg».proof.Defs
import proofs.«417074_j47682726920486_3_alg».proof.Proof.Gen.Kernel.Frame
import proofs.«417074_j47682726920486_3_alg».proof.Proof.Gen.KernelIdeal.Frame
import proofs.«417074_j47682726920486_3_alg».proof.Proof.Gen.KernelIdeal.Value
import proofs.«417074_j47682726920486_3_alg».proof.Proof.Gen.ReferenceIdeal.Run
import proofs.«417074_j47682726920486_3_alg».proof.Proof.Gen.ReferenceIdeal.Read
import proofs.«417074_j47682726920486_3_alg».proof.Proof.Gen.Pre_finite_inputs
import proofs.«417074_j47682726920486_3_alg».proof.Proof.KInv
import proofs.«417074_j47682726920486_3_alg».proof.Proof.RefValue
import proofs.«417074_j47682726920486_3_alg».proof.Proof.PreDecode
import Idealize.ShloMosaic.Adequacy
import Idealize.ShloMosaic.Init

noncomputable section

open Idealize.ShloMosaic Idealize.ShloMosaic.TcCoe Idealize.SL.Sem

namespace Cert.Proof.Claims

open SparseAttn Cert.KernelIdeal.Sweep

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `G` of the arguments: the kernel by its sweep, the reference by its
    gathered softmax, the arguments agreeing. -/
theorem algebraic : Cert.algebraic_KernelIdeal_ReferenceIdeal := by
  intro m ρ m' ρ' hpre hagree
  have hA : ∀ c : Dev Cert.KernelIdeal.nD, Admissible (Qa m c) (KVa m c) (Ia m c) :=
    fun c => SparseAttn.Pre.admissible_of_pre _ _ _ (hpre c)
  refine ⟨fun c => G (Qa m c) (KVa m c) (Ia m c), Cert.KernelIdeal.Sweep.run m ρ hA, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, (hagree c).1, (hagree c).2.1, (hagree c).2.2]
  exact SparseAttn.Ref.ref_eq_G _ _ _ (hA c)

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
